-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x1 : Shape := ⟨2, ![800000, 1]⟩
abbrev S129x64 : Shape := ⟨2, ![129, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S129x64 : S_.BroadcastsInDim S129x64 (![] : Fin 0 → Fin S129x64.rank)
  reducesTo_S129x64_S_d0_1 : S129x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg1 : IVec S2x800000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S2x800000 32 := broadcastInDim S2x800000 ![] bcast_S_S2x800000 main_c_20
  let main_v55 : IVec S2x800000 1 := cmpi .sge main_arg1 main_v54
  let main_c_21 : IVec S_ 32 := constantI S_ 32 50000#32
  let main_v56 : IVec S2x800000 32 := broadcastInDim S2x800000 ![] bcast_S_S2x800000 main_c_21
  let main_v57 : IVec S2x800000 1 := cmpi .slt main_arg1 main_v56
  let main_v58 : IVec S2x800000 1 := andi main_v55 main_v57
  let main_c_22 : IVec S_ 1 := constantI S_ 1 1#1
  let main_v59 : IVec S_ 1 := (fun x v => Host.reduce IntOp.andi x v reducesTo_S2x800000_S_d0_1 h_S_) main_v58 main_c_22
  let main_v60 : IVec S_ 1 := andi main_v53 main_v59
  main_v60

def fn_part2 {F : FTy → Type} [FloatOps F] (main_arg1 : IVec S2x800000 32) (main_arg8 : FVec F S128x64 .f32) (main_arg9 : FVec F S64 .f32) (main_arg10 : FVec F S64x64 .f32) (main_arg11 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_v48 main_v49 main_v50

def fn_part1 {F : FTy → Type} [FloatOps F] (main_arg1 : IVec S2x800000 32) (main_arg5 : FVec F S64 .f32) (main_arg6 : FVec F S64x64 .f32) (main_arg7 : FVec F S64 .f32) (main_arg8 : FVec F S128x64 .f32) (main_arg9 : FVec F S64 .f32) (main_arg10 : FVec F S64x64 .f32) (main_arg11 : FVec F S64 .f32) (main_v13 : IVec S_ 1) (main_v16 : IVec S129x64 1) : IVec S_ 1 :=
  let main_c_5 : IVec S_ 1 := constantI S_ 1 1#1
  let main_v17 : IVec S_ 1 := (fun x v => Host.reduce IntOp.andi x v reducesTo_S129x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S50000x64 .f32) (main_arg1 : IVec S2x800000 32) (main_arg2 : FVec F S800000x1 .f32) (main_arg3 : FVec F S800000x1 .f32) (main_arg4 : FVec F S129x64 .f32) (main_arg5 : FVec F S64 .f32) (main_arg6 : FVec F S64x64 .f32) (main_arg7 : FVec F S64 .f32) (main_arg8 : FVec F S128x64 .f32) (main_arg9 : FVec F S64 .f32) (main_arg10 : FVec F S64x64 .f32) (main_arg11 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S800000x1 .f32 := Host.absf main_arg3
  let main_cst_2 : FVec F S_ .f32 := constant S_ .f32 0x7F800000#32
  let main_v10 : FVec F S800000x1 .f32 := broadcastInDim S800000x1 ![] bcast_S_S800000x1 main_cst_2
  let main_v11 : IVec S800000x1 1 := cmpf .olt main_v9 main_v10
  let main_c_3 : IVec S_ 1 := constantI S_ 1 1#1
  let main_v12 : IVec S_ 1 := (fun x v => Host.reduce IntOp.andi x v reducesTo_S800000x1_S_d0_1 h_S_) main_v11 main_c_3
  let main_v13 : IVec S_ 1 := andi main_v8 main_v12
  let main_v14 : FVec F S129x64 .f32 := Host.absf main_arg4
  let main_cst_4 : FVec F S_ .f32 := constant S_ .f32 0x7F800000#32
  let main_v15 : FVec F S129x64 .f32 := broadcastInDim S129x64 ![] bcast_S_S129x64 main_cst_4
  let main_v16 : IVec S129x64 1 := cmpf .olt main_v14 main_v15
  fn_part1 (F := F) main_arg1 main_arg5 main_arg6 main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S800000x1 : Shape := ⟨2, ![800000, 1]⟩
abbrev S129x64 : Shape := ⟨2, ![129, 64]⟩
abbrev S64 : Shape := ⟨1, ![64]⟩
abbrev S64x64 : Shape := ⟨2, ![64, 64]⟩
abbrev S128x64 : Shape := ⟨2, ![128, 64]⟩
abbrev S1x800000 : Shape := ⟨2, ![1, 800000]⟩
abbrev S800000 : Shape := ⟨1, ![800000]⟩
abbrev S_ : Shape := ⟨0, ![]⟩
abbrev S1 : Shape := ⟨1, ![1]⟩
abbrev S1x1 : Shape := ⟨2, ![1, 1]⟩
abbrev S800000x64 : Shape := ⟨2, ![800000, 64]⟩
abbrev S800000x2 : Shape := ⟨2, ![800000, 2]⟩
abbrev S1x64 : Shape := ⟨2, ![1, 64]⟩
abbrev S8000x64 : Shape := ⟨2, ![8000, 64]⟩
abbrev S8000x2 : Shape := ⟨2, ![8000, 2]⟩
abbrev S8000x1 : Shape := ⟨2, ![8000, 1]⟩
abbrev S5000x64 : Shape := ⟨2, ![5000, 64]⟩
abbrev S5000x128 : Shape := ⟨2, ![5000, 128]⟩

abbrev nBuf : Space → Nat
  | .hbm => 76
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x1, .f32⟩
  | .hbm, ⟨3, _⟩ => ⟨S800000x1, .f32⟩
  | .hbm, ⟨4, _⟩ => ⟨S129x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S1, .i32⟩
  | .hbm, ⟨25, _⟩ => ⟨S_, .i32⟩
  | .hbm, ⟨26, _⟩ => ⟨S800000x1, .i32⟩
  | .hbm, ⟨27, _⟩ => ⟨S800000x1, .i1⟩
  | .hbm, ⟨28, _⟩ => ⟨S1x1, .i32⟩
  | .hbm, ⟨29, _⟩ => ⟨S800000x1, .i32⟩
  | .hbm, ⟨30, _⟩ => ⟨S800000x1, .i1⟩
  | .hbm, ⟨31, _⟩ => ⟨S800000x1, .i1⟩
  | .hbm, ⟨32, _⟩ => ⟨S_, .i1⟩
  | .hbm, ⟨33, _⟩ => ⟨S800000, .i1⟩
  | .hbm, ⟨34, _⟩ => ⟨S800000x64, .f32⟩
  | .hbm, ⟨35, _⟩ => ⟨S800000x64, .i1⟩
  | .hbm, ⟨36, _⟩ => ⟨S_, .f32⟩
  | .hbm, ⟨37, _⟩ => ⟨S800000x64, .f32⟩
  | .hbm, ⟨38, _⟩ => ⟨S800000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S1, .i32⟩
  | .hbm, ⟨48, _⟩ => ⟨S_, .i32⟩
  | .hbm, ⟨49, _⟩ => ⟨S800000x1, .i32⟩
  | .hbm, ⟨50, _⟩ => ⟨S800000x1, .i1⟩
  | .hbm, ⟨51, _⟩ => ⟨S1x1, .i32⟩
  | .hbm, ⟨52, _⟩ => ⟨S800000x1, .i32⟩
  | .hbm, ⟨53, _⟩ => ⟨S800000x1, .i1⟩
  | .hbm, ⟨54, _⟩ => ⟨S800000x1, .i1⟩
  | .hbm, ⟨55, _⟩ => ⟨S_, .i1⟩
  | .hbm, ⟨56, _⟩ => ⟨S800000, .i1⟩
  | .hbm, ⟨57, _⟩ => ⟨S800000x64, .f32⟩
  | .hbm, ⟨58, _⟩ => ⟨S800000x64, .i1⟩
  | .hbm, ⟨59, _⟩ => ⟨S_, .f32⟩
  | .hbm, ⟨60, _⟩ => ⟨S800000x64, .f32⟩
  | .hbm, ⟨61, _⟩ => ⟨S800000x64, .f32⟩
  | .hbm, ⟨62, _⟩ => ⟨S800000x2, .f32⟩
  | .hbm, ⟨63, _⟩ => ⟨S64x64, .f32⟩
  | .hbm, ⟨64, _⟩ => ⟨S64x64, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S800000x64, .f32⟩
  | .hbm, ⟨69, _⟩ => ⟨S_, .f32⟩
  | .hbm, ⟨70, _⟩ => ⟨S50000x64, .f32⟩
  | .hbm, ⟨71, _⟩ => ⟨S800000x1, .i32⟩
  | .hbm, ⟨72, _⟩ => ⟨S50000x64, .f32⟩
  | .hbm, ⟨73, _⟩ => ⟨S1x64, .f32⟩
  | .hbm, ⟨74, _⟩ => ⟨S1x64, .f32⟩
  | .hbm, ⟨75, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x2, .f32⟩
  | .local _ .vmem, ⟨5, _⟩ => ⟨S8000x2, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S8000x64, .f32⟩
  | .local _ .vmem, ⟨13, _⟩ => ⟨S8000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S128x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_cst : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  concatenates_S800000x1_S800000x1_S800000x2_d1 : Shape.Concatenates [S800000x1, S800000x1] S800000x2 1
  slices_S129x64_S64x64_0_0 : S129x64.Slices ![0, 0] S64x64
  slices_S129x64_S64x64_64_0 : S129x64.Slices ![64, 0] S64x64
  slices_S129x64_S1x64_128_0 : S129x64.Slices ![128, 0] S1x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x2_S8000x2_0_0 : ∀ a, (![0, 0] : Fin 2 → Nat) a + S8000x2.size a ≤ S8000x2.size a
  h_S8000x2 : 0 < S8000x2.numel
  shapeCasts_S8000x2_S8000x2 : S8000x2.ShapeCasts S8000x2
  slices_S8000x2_o0_0_S8000x1 : S8000x2.Slices ![0, 0] S8000x1
  slices_S8000x2_o0_1_S8000x1 : S8000x2.Slices ![0, 1] S8000x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S8000x1_S8000x64 : S8000x1.Broadcasts S8000x64
  broadcasts_S1x64_S8000x64 : S1x64.Broadcasts S8000x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x2.size a ≤ S800000x2.size a
  hwx0_2 : ∀ i : grid0.Coords, EltTy.bits .f32 = 32 ∨ (Rect.block (s := S800000x2) S8000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S800000x64.size a
  hwx0_9 : ∀ i : grid0.Coords, EltTy.bits .f32 = 32 ∨ (Rect.block (s := S800000x64) S8000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v4) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x1 : Shape := ⟨2, ![800000, 1]⟩
abbrev S129x64 : Shape := ⟨2, ![129, 64]⟩
abbrev S64 : Shape := ⟨1, ![64]⟩
abbrev S64x64 : Shape := ⟨2, ![64, 64]⟩
abbrev S128x64 : Shape := ⟨2, ![128, 64]⟩
abbrev S1x800000 : Shape := ⟨2, ![1, 800000]⟩
abbrev S800000 : Shape := ⟨1, ![800000]⟩
abbrev S_ : Shape := ⟨0, ![]⟩
abbrev S800000x64 : Shape := ⟨2, ![800000, 64]⟩
abbrev S800000x129 : Shape := ⟨2, ![800000, 129]⟩
abbrev S1x64 : Shape := ⟨2, ![1, 64]⟩
abbrev S50000x128 : Shape := ⟨2, ![50000, 128]⟩

abbrev nBuf : Space → Nat
  | .hbm => 86
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x1, .f32⟩
  | .hbm, ⟨3, _⟩ => ⟨S800000x1, .f32⟩
  | .hbm, ⟨4, _⟩ => ⟨S129x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S800000x129, .f32⟩
  | .hbm, ⟨35, _⟩ => ⟨S800000x64, .f32⟩
  | .hbm, ⟨36, _⟩ => ⟨S1x64, .f32⟩
  | .hbm, ⟨37, _⟩ => ⟨S800000x64, .f32⟩
  | .hbm, ⟨38, _⟩ => ⟨S800000x64, .f32⟩
  | .hbm, ⟨39, _⟩ => ⟨S800000x64, .f32⟩
  | .hbm, ⟨40, _⟩ => ⟨S800000x64, .f32⟩
  | .hbm, ⟨41, _⟩ => ⟨S_, .f32⟩
  | .hbm, ⟨42, _⟩ => ⟨S800000x64, .f32⟩
  | .hbm, ⟨43, _⟩ => ⟨S800000x64, .f32⟩
  | .hbm, ⟨44, _⟩ => ⟨S_, .f32⟩
  | .hbm, ⟨45, _⟩ => ⟨S800000x64, .f32⟩
  | .hbm, ⟨46, _⟩ => ⟨S800000x64, .f32⟩
  | .hbm, ⟨47, _⟩ => ⟨S800000x64, .f32⟩
  | .hbm, ⟨48, _⟩ => ⟨S800000x64, .f32⟩
  | .hbm, ⟨49, _⟩ => ⟨S1x64, .f32⟩
  | .hbm, ⟨50, _⟩ => ⟨S800000x64, .f32⟩
  | .hbm, ⟨51, _⟩ => ⟨S800000x64, .f32⟩
  | .hbm, ⟨52, _⟩ => ⟨S800000x64, .f32⟩
  | .hbm, ⟨53, _⟩ => ⟨S800000x64, .f32⟩
  | .hbm, ⟨54, _⟩ => ⟨S_, .f32⟩
  | .hbm, ⟨55, _⟩ => ⟨S800000x64, .f32⟩
  | .hbm, ⟨56, _⟩ => ⟨S800000x64, .f32⟩
  | .hbm, ⟨57, _⟩ => ⟨S_, .f32⟩
  | .hbm, ⟨58, _⟩ => ⟨S800000x64, .f32⟩
  | .hbm, ⟨59, _⟩ => ⟨S800000x64, .f32⟩
  | .hbm, ⟨60, _⟩ => ⟨S800000x64, .f32⟩
  | .hbm, ⟨61, _⟩ => ⟨S800000x64, .f32⟩
  | .hbm, ⟨62, _⟩ => ⟨S800000x64, .f32⟩
  | .hbm, ⟨63, _⟩ => ⟨S_, .f32⟩
  | .hbm, ⟨64, _⟩ => ⟨S50000x64, .f32⟩
  | .hbm, ⟨65, _⟩ => ⟨S800000x1, .i32⟩
  | .hbm, ⟨66, _⟩ => ⟨S50000x64, .f32⟩
  | .hbm, ⟨67, _⟩ => ⟨S50000x128, .f32⟩
  | .hbm, ⟨68, _⟩ => ⟨S50000x64, .f32⟩
  | .hbm, ⟨69, _⟩ => ⟨S1x64, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S_, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x64, .f32⟩
  | .hbm, ⟨85, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x1_S800000x129_d1 : Shape.Concatenates [S800000x64, S800000x64, S800000x1] S800000x129 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x129_S129x64_S800000x64_1_0_0_1_n_n_wf : DotDims.WF S800000x129 S129x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x129_S129x64_S800000x64_1_0_0_1_n_n : DotDims S800000x129 S129x64 S800000x64 where
  lhsContracting := [1]
  rhsContracting := [0]
  lhsNonContracting := [0]
  rhsNonContracting := [1]
  lhsBatch := []
  rhsBatch := []
  wf := dot_S800000x129_S129x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.IndexRange.lean ====
/-
  The index range out of the precondition: every entry of edge_index reads, signed, at least 0 and below 50000. The
  precondition is a conjunction whose last conjunct is the all-reduction of (edge_index ≥ 0) ∧ (edge_index < 50000).
-/
import proofs.«409949_j86620900426031_2_alg».proof.Pre_finite_inputs
import Idealize.ShloMosaic.Lib.ReduceAll
import Idealize.ShloMosaic.Lib.ValueIdx

noncomputable section

namespace Cert.IndexRange

open Idealize.ShloMosaic Idealize.ShloMosaic.ValueIdx Cert.Pre_finite_inputs

instance : Subsingleton S_.Idx := ⟨fun a b => funext fun d => d.elim0⟩

variable [Cert.Pre_finite_inputs.Facts]

/-- Where the precondition holds, every index word is at least 0 and below 50000, read signed. -/
theorem of_pre {F : FTy → Type} [FloatOps F] (a0 : FVec F S50000x64 .f32) (a1 : IVec S2x800000 32) (a2 a3 : FVec F S800000x1 .f32)
    (a4 : FVec F S129x64 .f32) (a5 : FVec F S64 .f32) (a6 : FVec F S64x64 .f32) (a7 : FVec F S64 .f32) (a8 : FVec F S128x64 .f32)
    (a9 : FVec F S64 .f32) (a10 : FVec F S64x64 .f32) (a11 : FVec F S64 .f32)
    (h : fn (F := F) a0 a1 a2 a3 a4 a5 a6 a7 a8 a9 a10 a11 = fun _ => 1#1) (i : S2x800000.Idx) :
    IntOp.cmpi .sge (a1 i) 0#32 = 1#1 ∧ IntOp.cmpi .slt (a1 i) 50000#32 = 1#1 := by
  have h0 := congrFun h ix0
  unfold fn fn_part1 fn_part2 fn_part3 at h0
  dsimp only at h0
  have h1 := (IntOp.andi_eq_one.1 h0).2
  have h2 := Host.reduce_andi_all _ _ _ _ _ h1 i
  exact IntOp.andi_eq_one.1 h2

end Cert.IndexRange

end
-- ==== Proof.LibTRefCast.lean ====
/-
  A VALUE STORED THROUGH A TYPED REFERENCE AND READ BACK IS ITSELF.

  The operations of a module-local function (a `func.call` of the program: jnp.take's `_take`, jnp.where's `_where`, …) are
  built over typed references, and each moves its function's operands and result between the value's type and the
  buffer's own along the reference's type equation (`TRef.ofBuf`, `TRef.toBuf`). Read back after a run of such
  operations (the `*_result` lemmas, `after_results`, `after_results_simp`), every intermediate value therefore sits
  under a pair `x.ofBuf (x.toBuf v)` of the SAME reference, and the term, though equal to the plain composition of the
  operations' functions, is not syntactically so; closing it by `rfl` sends the elaborator through every transport.
  `simp only [TRef.ofBuf_toBuf]` removes the pairs without evaluating any buffer type; what is left is the outermost
  `toBuf` and the `ofBuf` of each buffer the stretch reads, each the identity at a literal reference by `rfl`.
-/
import Idealize.ShloMosaic.Lib.StableHlo

namespace Idealize.ShloMosaic.StableHlo.TRef

variable {sig : RefSig} {Val : EltTy → Type} {T : BufTy}

/-- Storing a value at a typed reference's buffer type and reading it back at the value's type gives the value. -/
theorem ofBuf_toBuf (x : TRef sig T) (v : T.Contents Val) : x.ofBuf (x.toBuf v) = v := by
  obtain ⟨r, h, _, _⟩ := x
  subst h
  rfl

/-- Reading a buffer's contents at the value's type and storing them back gives the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.HostSide.lean ====
/-
  The host side of the kernel program as values: what each array a pallas_call reads holds when its region is entered,
  as a function of the launch memory. Before the edge region: the two takes of x at edge_index's rows (negative words
  wrapped, then the gather, then the rows whose start index is out of [0, 49999] replaced by the fill value), attr and mask
  side by side, W₁'s three row blocks, the two biases laid as rows. Between the regions: the scatter-add of the edge region's
  output into zeros at edge_index's first row, and the node biases laid as rows. After the node region: the two results.
-/
import proofs.«409949_j86620900426031_2_alg».proof.Proof.Gen.KernelIdeal.Frame
import proofs.«409949_j86620900426031_2_alg».proof.Proof.LibTRefCast
import Idealize.ShloMosaic.Lib.StableHlo.Run

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen

/-- No operation of a stretch writes the buffer: the references differ, one by one. -/
macro "nw" ops:ident : tactic =>
  `(tactic| exact List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

variable {F : FTy → Type} [FloatOps F]

/-! ## The host functions -/

/-- Row 0 of edge_index as a vector. -/
def row0 (a1 : IVec S2x800000 32) : IVec S800000 32 :=
  shapeCast S800000 (extractStridedSlice S1x800000 ![0, 0] a1 slices_S2x800000_S1x800000_0_0) shapeCasts_S1x800000_S800000
/-- Row 1 of edge_index as a vector. -/
def row1 (a1 : IVec S2x800000 32) : IVec S800000 32 :=
  shapeCast S800000 (extractStridedSlice S1x800000 ![1, 0] a1 slices_S2x800000_S1x800000_1_0) shapeCasts_S1x800000_S800000

/-- The index words with the negative ones moved up by 50000. -/
def wrapIdx (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx
/-- The gather's start indices: the wrapped words as a column. -/
def startIdx (idx : IVec S800000 32) : IVec S800000x1 32 :=
  broadcastInDim S800000x1 ![0] bcast_S800000_S800000x1_0 (wrapIdx idx)
/-- Per edge: is the start index in [0, 49999]? -/
def inBounds (idx : IVec S800000 32) : IVec S800000 1 :=
  Host.reduce IntOp.andi
    (andi (cmpi .sge (startIdx idx) (broadcastInDim S800000x1 ![] bcast_S_S800000x1 (constantI S_ 32 0#32)))
      (cmpi .sle (startIdx idx) (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_
/-- The rows of x at the index words, a row whose start index is out of range replaced by the fill value. -/
def take (x : FVec F S50000x64 .f32) (idx : IVec S800000 32) : FVec F S800000x64 .f32 :=
  select (broadcastInDim S800000x64 ![0] bcast_S800000_S800000x64_0 (inBounds idx))
    (Host.gather gather_S50000x64_S800000x1_S800000x64_1_0_n_n_0_1_164 x (startIdx idx))
    (broadcastInDim S800000x64 ![] bcast_S_S800000x64 (constant S_ .f32 0x7FC00000#32))

/-- The messages summed into zeros at the first index row. -/
def aggregate (idx : IVec S800000 32) (ef : FVec F S800000x64 .f32) : FVec F S50000x64 .f32 :=
  Host.scatterAdd scatter_S50000x64_S800000x1_S800000x64_1_0_0_1 (broadcastInDim S50000x64 ![] bcast_S_S50000x64 (constant S_ .f32 0x00000000#32))
    (broadcastInDim S800000x1 ![0] bcast_S800000_S800000x1_0 idx) ef

/-! ## A typed reference's transport at a literal buffer is the identity -/

theorem cast_v4 (v : main_v4.ty.Contents (Elt F)) : (TRef.of main_v4 : TRef sig ⟨S800000x64, .f32⟩).ofBuf v = v := rfl
theorem cast_v5 (v : main_v5.ty.Contents (Elt F)) : (TRef.of main_v5 : TRef sig ⟨S800000x64, .f32⟩).ofBuf v = v := rfl
theorem cast_a0 (v : main_arg0.ty.Contents (Elt F)) : (TRef.of main_arg0 : TRef sig ⟨S50000x64, .f32⟩).ofBuf v = v := rfl
theorem cast_v1 (v : main_v1.ty.Contents (Elt F)) : (TRef.of main_v1 : TRef sig ⟨S800000, .i32⟩).ofBuf v = v := rfl
theorem cast_v3 (v : main_v3.ty.Contents (Elt F)) : (TRef.of main_v3 : TRef sig ⟨S800000, .i32⟩).ofBuf v = v := rfl

/-! ## The two take stretches, from any contents before them -/

set_option maxRecDepth 65536 in
theorem take_stretch0 (Wp : Valuation τ sig (Elt F)) :
    (TRef.of main_v4 : TRef sig ⟨S800000x64, .f32⟩).ofBuf (StableHlo.after hostOps0_1 Wp (Proc.devRef .tc main_v4))
      = take ((TRef.of main_arg0 : TRef sig ⟨S50000x64, .f32⟩).ofBuf (Wp (Proc.devRef .tc main_arg0)))
          ((TRef.of main_v1 : TRef sig ⟨S800000, .i32⟩).ofBuf (Wp (Proc.devRef .tc main_v1))) := by
  after_results_simp
  simp only [TRef.ofBuf_toBuf]
  unfold take inBounds startIdx wrapIdx
  rfl

set_option maxRecDepth 65536 in
theorem take_stretch1 (Wp : Valuation τ sig (Elt F)) :
    (TRef.of main_v5 : TRef sig ⟨S800000x64, .f32⟩).ofBuf (StableHlo.after hostOps0_2 Wp (Proc.devRef .tc main_v5))
      = take ((TRef.of main_arg0 : TRef sig ⟨S50000x64, .f32⟩).ofBuf (Wp (Proc.devRef .tc main_arg0)))
          ((TRef.of main_v3 : TRef sig ⟨S800000, .i32⟩).ofBuf (Wp (Proc.devRef .tc main_v3))) := by
  after_results_simp
  simp only [TRef.ofBuf_toBuf]
  unfold take inBounds startIdx wrapIdx
  rfl

variable (m : (ℓ : Loc nD τ sig) → Buf (Elt F) ℓ) (ρ : Dev nD → PrngReg)

/-! ## Buffers the stretches leave alone -/

theorem W1_kept (c : Dev nD) (b : Ref sig .tc)
    (h0 : ∀ op ∈ (hostOps0 : List (HloOp τ sig (Elt F))), (Proc.devRef .tc b : DevRef τ sig) ∉ op.writes) :
    W1 m ρ c (Proc.devRef .tc b) = m ((c : Thread nD τ).loc b) :=
  StableHlo.after_of_forall_not_mem _ _ h0
theorem W2_kept (c : Dev nD) (b : Ref sig .tc)
    (h0 : ∀ op ∈ (hostOps0 : List (HloOp τ sig (Elt F))), (Proc.devRef .tc b : DevRef τ sig) ∉ op.writes)
    (h1 : ∀ op ∈ (hostOps0_1 : List (HloOp τ sig (Elt F))), (Proc.devRef .tc b : DevRef τ sig) ∉ op.writes) :
    W2 m ρ c (Proc.devRef .tc b) = m ((c : Thread nD τ).loc b) :=
  (StableHlo.after_of_forall_not_mem _ _ h1).trans (W1_kept m ρ c b h0)
theorem W3_kept (c : Dev nD) (b : Ref sig .tc)
    (h0 : ∀ op ∈ (hostOps0 : List (HloOp τ sig (Elt F))), (Proc.devRef .tc b : DevRef τ sig) ∉ op.writes)
    (h1 : ∀ op ∈ (hostOps0_1 : List (HloOp τ sig (Elt F))), (Proc.devRef .tc b : DevRef τ sig) ∉ op.writes)
    (h2 : ∀ op ∈ (hostOps0_2 : List (HloOp τ sig (Elt F))), (Proc.devRef .tc b : DevRef τ sig) ∉ op.writes) :
    W3 m ρ c (Proc.devRef .tc b) = m ((c : Thread nD τ).loc b) :=
  (StableHlo.after_of_forall_not_mem _ _ h2).trans (W2_kept m ρ c b h0 h1)
theorem W4_kept (c : Dev nD) (b : Ref sig .tc)
    (h0 : ∀ op ∈ (hostOps0 : List (HloOp τ sig (Elt F))), (Proc.devRef .tc b : DevRef τ sig) ∉ op.writes)
    (h1 : ∀ op ∈ (hostOps0_1 : List (HloOp τ sig (Elt F))), (Proc.devRef .tc b : DevRef τ sig) ∉ op.writes)
    (h2 : ∀ op ∈ (hostOps0_2 : List (HloOp τ sig (Elt F))), (Proc.devRef .tc b : DevRef τ sig) ∉ op.writes)
    (h3 : ∀ op ∈ (hostOps0_3 : List (HloOp τ sig (Elt F))), (Proc.devRef .tc b : DevRef τ sig) ∉ op.writes) :
    W4 m ρ c (Proc.devRef .tc b) = m ((c : Thread nD τ).loc b) :=
  (StableHlo.after_of_forall_not_mem _ _ h3).trans (W3_kept m ρ c b h0 h1 h2)

/-! ## The index rows -/

set_option maxRecDepth 65536 in
theorem W1_row0 (c : Dev nD) : (W1 m ρ c (Proc.devRef .tc main_v1) : (⟨S800000, .i32⟩ : BufTy).Contents (Elt F))
    = row0 (m ((c : Thread nD τ).loc main_arg1)) := by
  show StableHlo.after hostOps0 (W0 m ρ c) (Proc.devRef .tc main_v1) = _
  after_results
  rfl
set_option maxRecDepth 65536 in
theorem W1_row1 (c : Dev nD) : (W1 m ρ c (Proc.devRef .tc main_v3) : (⟨S800000, .i32⟩ : BufTy).Contents (Elt F))
    = row1 (m ((c : Thread nD τ).loc main_arg1)) := by
  show StableHlo.after hostOps0 (W0 m ρ c) (Proc.devRef .tc main_v3) = _
  after_results
  rfl

/-! ## The arrays the edge region reads, at its entry -/

theorem V4_src (c : Dev nD) : (V4 m ρ c main_v4 : (⟨S800000x64, .f32⟩ : BufTy).Contents (Elt F))
    = take (m ((c : Thread nD τ).loc main_arg0)) (row0 (m ((c : Thread nD τ).loc main_arg1))) := by
  have e2 : W4 m ρ c (Proc.devRef .tc main_v4) = W2 m ρ c (Proc.devRef .tc main_v4) :=
    (StableHlo.after_of_forall_not_mem _ _ (by nw hostOps0_3)).trans (StableHlo.after_of_forall_not_mem _ _ (by nw hostOps0_2))
  have e := take_stretch0 (F := F) (W1 m ρ c)
  rw [cast_v4, cast_a0, cast_v1, W1_kept m ρ c main_arg0 (by nw hostOps0), W1_row0] at e
  exact e2.trans e

theorem V4_tgt (c : Dev nD) : (V4 m ρ c main_v5 : (⟨S800000x64, .f32⟩ : BufTy).Contents (Elt F))
    = take (m ((c : Thread nD τ).loc main_arg0)) (row1 (m ((c : Thread nD τ).loc main_arg1))) := by
  have e2 : W4 m ρ c (Proc.devRef .tc main_v5) = W3 m ρ c (Proc.devRef .tc main_v5) :=
    StableHlo.after_of_forall_not_mem _ _ (by nw hostOps0_3)
  have e3 : W2 m ρ c (Proc.devRef .tc main_v3) = W1 m ρ c (Proc.devRef .tc main_v3) :=
    StableHlo.after_of_forall_not_mem _ _ (by nw hostOps0_1)
  have e := take_stretch1 (F := F) (W2 m ρ c)
  rw [cast_v5, cast_a0, cast_v3, W2_kept m ρ c main_arg0 (by nw hostOps0) (by nw hostOps0_1), e3, W1_row1] at e
  exact e2.trans e

theorem V4_am (c : Dev nD) : (V4 m ρ c main_v6 : (⟨S800000x2, .f32⟩ : BufTy).Contents (Elt F))
    = concatenate S800000x2 1 [⟨S800000x1, (m ((c : Thread nD τ).loc main_arg3) : (⟨S800000x1, .f32⟩ : BufTy).Contents (Elt F))⟩,
        ⟨S800000x1, (m ((c : Thread nD τ).loc main_arg2) : (⟨S800000x1, .f32⟩ : BufTy).Contents (Elt F))⟩] concatenates_S800000x1_S800000x1_S800000x2_d1 := by
  rw [← W3_kept m ρ c main_arg3 (by nw hostOps0) (by nw hostOps0_1) (by nw hostOps0_2),
    ← W3_kept m ρ c main_arg2 (by nw hostOps0) (by nw hostOps0_1) (by nw hostOps0_2)]
  dsimp only [V4, W4]
  generalize W3 m ρ c = Wp
  after_results

theorem V4_ws (c : Dev nD) : (V4 m ρ c main_v7 : (⟨S64x64, .f32⟩ : BufTy).Contents (Elt F))
    = extractStridedSlice S64x64 ![0, 0] (m ((c : Thread nD τ).loc main_arg4) : (⟨S129x64, .f32⟩ : BufTy).Contents (Elt F)) slices_S129x64_S64x64_0_0 := by
  rw [← W3_kept m ρ c main_arg4 (by nw hostOps0) (by nw hostOps0_1) (by nw hostOps0_2)]
  dsimp only [V4, W4]
  generalize W3 m ρ c = Wp
  after_results

theorem V4_wt (c : Dev nD) : (V4 m ρ c main_v8 : (⟨S64x64, .f32⟩ : BufTy).Contents (Elt F))
    = extractStridedSlice S64x64 ![64, 0] (m ((c : Thread nD τ).loc main_arg4) : (⟨S129x64, .f32⟩ : BufTy).Contents (Elt F)) slices_S129x64_S64x64_64_0 := by
  rw [← W3_kept m ρ c main_arg4 (by nw hostOps0) (by nw hostOps0_1) (by nw hostOps0_2)]
  dsimp only [V4, W4]
  generalize W3 m ρ c = Wp
  after_results

theorem V4_wa (c : Dev nD) : (V4 m ρ c main_v9 : (⟨S1x64, .f32⟩ : BufTy).Contents (Elt F))
    = extractStridedSlice S1x64 ![128, 0] (m ((c : Thread nD τ).loc main_arg4) : (⟨S129x64, .f32⟩ : BufTy).Contents (Elt F)) slices_S129x64_S1x64_128_0 := by
  rw [← W3_kept m ρ c main_arg4 (by nw hostOps0) (by nw hostOps0_1) (by nw hostOps0_2)]
  dsimp only [V4, W4]
  generalize W3 m ρ c = Wp
  after_results

set_option maxRecDepth 65536 in
theorem V4_b1 (c : Dev nD) : (V4 m ρ c main_v10 : (⟨S1x64, .f32⟩ : BufTy).Contents (Elt F))
    = shapeCast S1x64 (m ((c : Thread nD τ).loc main_arg5) : (⟨S64, .f32⟩ : BufTy).Contents (Elt F)) shapeCasts_S64_S1x64 := by
  rw [← W3_kept m ρ c main_arg5 (by nw hostOps0) (by nw hostOps0_1) (by nw hostOps0_2)]
  dsimp only [V4, W4]
  generalize W3 m ρ c = Wp
  after_results
  rfl

set_option maxRecDepth 65536 in
theorem V4_b2 (c : Dev nD) : (V4 m ρ c main_v11 : (⟨S1x64, .f32⟩ : BufTy).Contents (Elt F))
    = shapeCast S1x64 (m ((c : Thread nD τ).loc main_arg7) : (⟨S64, .f32⟩ : BufTy).Contents (Elt F)) shapeCasts_S64_S1x64 := by
  rw [← W3_kept m ρ c main_arg7 (by nw hostOps0) (by nw hostOps0_1) (by nw hostOps0_2)]
  dsimp only [V4, W4]
  generalize W3 m ρ c = Wp
  after_results
  rfl

theorem V4_w2 (c : Dev nD) : V4 m ρ c main_arg6 = m ((c : Thread nD τ).loc main_arg6) :=
  W4_kept m ρ c main_arg6 (by nw hostOps0) (by nw hostOps0_1) (by nw hostOps0_2) (by nw hostOps0_3)

/-! ## The arrays the node region reads, at its entry -/

/-- An argument no stretch writes and no region owns as an output is as launched when the node region is entered. -/
theorem W5_kept (c : Dev nD) (b : Ref sig .tc) (hb : ∀ w, Pipeline.arrRef spec0 w ≠ b)
    (h0 : ∀ op ∈ (hostOps0 : List (HloOp τ sig (Elt F))), (Proc.devRef .tc b : DevRef τ sig) ∉ op.writes)
    (h1 : ∀ op ∈ (hostOps0_1 : List (HloOp τ sig (Elt F))), (Proc.devRef .tc b : DevRef τ sig) ∉ op.writes)
    (h2 : ∀ op ∈ (hostOps0_2 : List (HloOp τ sig (Elt F))), (Proc.devRef .tc b : DevRef τ sig) ∉ op.writes)
    (h3 : ∀ op ∈ (hostOps0_3 : List (HloOp τ sig (Elt F))), (Proc.devRef .tc b : DevRef τ sig) ∉ op.writes) :
    W5 m ρ c (Proc.devRef .tc b) = m ((c : Thread nD τ).loc b) :=
  (W5_of_ne m ρ c b hb).trans (W4_kept m ρ c b h0 h1 h2 h3)

theorem W6_kept (c : Dev nD) (b : Ref sig .tc) (hb : ∀ w, Pipeline.arrRef spec0 w ≠ b)
    (h0 : ∀ op ∈ (hostOps0 : List (HloOp τ sig (Elt F))), (Proc.devRef .tc b : DevRef τ sig) ∉ op.writes)
    (h1 : ∀ op ∈ (hostOps0_1 : List (HloOp τ sig (Elt F))), (Proc.devRef .tc b : DevRef τ sig) ∉ op.writes)
    (h2 : ∀ op ∈ (hostOps0_2 : List (HloOp τ sig (Elt F))), (Proc.devRef .tc b : DevRef τ sig) ∉ op.writes)
    (h3 : ∀ op ∈ (hostOps0_3 : List (HloOp τ sig (Elt F))), (Proc.devRef .tc b : DevRef τ sig) ∉ op.writes)
    (h4 : ∀ op ∈ (hostOps1 : List (HloOp τ sig (Elt F))), (Proc.devRef .tc b : DevRef τ sig) ∉ op.writes) :
    W6 m ρ c (Proc.devRef .tc b) = m ((c : Thread nD τ).loc b) :=
  (StableHlo.after_of_forall_not_mem _ _ h4).trans (W5_kept m ρ c b hb h0 h1 h2 h3)

theorem V6_x (c : Dev nD) : V6 m ρ c main_arg0 = m ((c : Thread nD τ).loc main_arg0) :=
  W6_kept m ρ c main_arg0 (by decide) (by nw hostOps0) (by nw hostOps0_1) (by nw hostOps0_2) (by nw hostOps0_3) (by nw hostOps1)
theorem V6_wn1 (c : Dev nD) : V6 m ρ c main_arg8 = m ((c : Thread nD τ).loc main_arg8) :=
  W6_kept m ρ c main_arg8 (by decide) (by nw hostOps0) (by nw hostOps0_1) (by nw hostOps0_2) (by nw hostOps0_3) (by nw hostOps1)
theorem V6_wn2 (c : Dev nD) : V6 m ρ c main_arg10 = m ((c : Thread nD τ).loc main_arg10) :=
  W6_kept m ρ c main_arg10 (by decide) (by nw hostOps0) (by nw hostOps0_1) (by nw hostOps0_2) (by nw hostOps0_3) (by nw hostOps1)

set_option maxRecDepth 65536 in
theorem V6_bn1 (c : Dev nD) : (V6 m ρ c main_v16 : (⟨S1x64, .f32⟩ : BufTy).Contents (Elt F))
    = shapeCast S1x64 (m ((c : Thread nD τ).loc main_arg9) : (⟨S64, .f32⟩ : BufTy).Contents (Elt F)) shapeCasts_S64_S1x64 := by
  rw [← W5_kept m ρ c main_arg9 (by decide) (by nw hostOps0) (by nw hostOps0_1) (by nw hostOps0_2) (by nw hostOps0_3)]
  dsimp only [V6, W6]
  generalize W5 m ρ c = Wp
  after_results
  rfl

set_option maxRecDepth 65536 in
theorem V6_bn2 (c : Dev nD) : (V6 m ρ c main_v17 : (⟨S1x64, .f32⟩ : BufTy).Contents (Elt F))
    = shapeCast S1x64 (m ((c : Thread nD τ).loc main_arg11) : (⟨S64, .f32⟩ : BufTy).Contents (Elt F)) shapeCasts_S64_S1x64 := by
  rw [← W5_kept m ρ c main_arg11 (by decide) (by nw hostOps0) (by nw hostOps0_1) (by nw hostOps0_2) (by nw hostOps0_3)]
  dsimp only [V6, W6]
  generalize W5 m ρ c = Wp
  after_results
  rfl

/-- The edge region's output array after the region. -/
theorem W5_ef (c : Dev nD) : W5 m ρ c (Proc.devRef .tc main_v12) = (dat0 (V4 m ρ) c).arrAt 9 cfg0.N := W5_arr m ρ c 9

theorem W5_row0 (c : Dev nD) : (W5 m ρ c (Proc.devRef .tc main_v1) : (⟨S800000, .i32⟩ : BufTy).Contents (Elt F))
    = row0 (m ((c : Thread nD τ).loc main_arg1)) :=
  (W5_of_ne m ρ c main_v1 (by decide)).trans ((StableHlo.after_of_forall_not_mem _ _ (by nw hostOps0_3)).trans
    ((StableHlo.after_of_forall_not_mem _ _ (by nw hostOps0_2)).trans ((StableHlo.after_of_forall_not_mem _ _ (by nw hostOps0_1)).trans (W1_row0 m ρ c))))

theorem V6_agg (c : Dev nD) : (V6 m ρ c main_v15 : (⟨S50000x64, .f32⟩ : BufTy).Contents (Elt F))
    = aggregate (row0 (m ((c : Thread nD τ).loc main_arg1))) ((dat0 (V4 m ρ) c).arrAt 9 cfg0.N) := by
  rw [← W5_row0 m ρ c, ← W5_ef m ρ c]
  dsimp only [V6, W6]
  generalize W5 m ρ c = Wp
  after_results
  try rfl

/-! ## The two results after the node region -/

theorem W7_out (c : Dev nD) : W7 m ρ c (Proc.devRef .tc main_v18) = (dat1 (V6 m ρ) c).arrAt 6 cfg1.N := W7_arr m ρ c 6

theorem W7_ef (c : Dev nD) : W7 m ρ c (Proc.devRef .tc main_v12) = (dat0 (V4 m ρ) c).arrAt 9 cfg0.N :=
  (W7_of_ne m ρ c main_v12 (by decide)).trans ((StableHlo.after_of_forall_not_mem _ _ (by nw hostOps1)).trans (W5_ef m ρ c))

end Cert.KernelIdeal.HostSide

end
-- ==== Proof.Layer.lean ====
/-
  One row of the message-passing layer, over the extended reals.

  For one edge with endpoint features s, t : 64 values, attribute a and mask value mk, the edge's features are
    ef[j] = silu (∑ₖ silu (pre[k]) · W₂[k, j] + b₂[j]) · mk,
    pre[k] = ∑_q cat(s, t, a)[q] · W₁[q, k] + b₁[k],   q < 129,
  and for one node with features xr and aggregated messages ar the node's output is
    out[j] = xr[j] + (∑ₖ silu (∑_q cat(xr, ar)[q] · Wn₁[q, k] + bn₁[k]) · Wn₂[k, j] + bn₂[j]),   q < 128,
  with silu z = z · (1 / (1 + e^(-z))).

  The first-layer sum over the 129 entries of cat(s, t, a) splits into the sum over s against rows 0..63 of W₁, the sum over
  t against rows 64..127, and the one term a · W₁[128, k]. Addition of extended reals is commutative and associative, so the
  split holds at every value, the infinities included.
-/
import Idealize.ShloMosaic.PureOps.Ideal.Laws
import Mathlib.Algebra.BigOperators.Fin

noncomputable section

open scoped BigOperators

namespace Cert.Layer

open Idealize.ShloMosaic

/-- silu z = z · (1 / (1 + e^(-z))). -/
def silu (z : EReal) : EReal := z * Ideal.logistic z

/-! ## One edge, the first layer written as three partial products -/

/-- The first layer's pre-activation at hidden unit `k`: s against the first weight block, plus t against the second, plus
    a times the attribute's weight row, plus the bias. -/
def hiddenPre (s t : Fin 64 → EReal) (a : EReal) (ws wt : Fin 64 → Fin 64 → EReal) (wa b1 : Fin 64 → EReal) (k : Fin 64) : EReal :=
  (((∑ q : Fin 64, s q * ws q k) + (∑ q : Fin 64, t q * wt q k)) + a * wa k) + b1 k

/-- The edge's feature `j` from the three partial products. -/
def edgeRow (s t : Fin 64 → EReal) (a mk : EReal) (ws wt : Fin 64 → Fin 64 → EReal) (wa b1 : Fin 64 → EReal)
    (w2 : Fin 64 → Fin 64 → EReal) (b2 : Fin 64 → EReal) (j : Fin 64) : EReal :=
  silu ((∑ k : Fin 64, silu (hiddenPre s t a ws wt wa b1 k) * w2 k j) + b2 j) * mk

/-! ## One edge, the first layer as ONE product over the 129 concatenated entries -/

/-- Entry `q` of cat(s, t, a). -/
def cat3 (s t : Fin 64 → EReal) (a : EReal) (q : Fin 129) : EReal :=
  if h : q.val < 64 then s ⟨q.val, h⟩
  else if h' : q.val < 128 then t ⟨q.val - 64, by omega⟩
  else a

/-- The edge's feature `j` with the one 129-entry product over a concatenated row `c`. -/
def edgeRowCat (c : Fin 129 → EReal) (mk : EReal) (w1 : Fin 129 → Fin 64 → EReal) (b1 : Fin 64 → EReal)
    (w2 : Fin 64 → Fin 64 → EReal) (b2 : Fin 64 → EReal) (j : Fin 64) : EReal :=
  silu ((∑ k : Fin 64, silu ((∑ q : Fin 129, c q * w1 q k) + b1 k) * w2 k j) + b2 j) * mk

/-- The sum over the 129 concatenated entries is the three partial sums. -/
theorem sum_cat3 (s t : Fin 64 → EReal) (a : EReal) (w1 : Fin 129 → Fin 64 → EReal) (k : Fin 64) :
    (∑ q : Fin 129, cat3 s t a q * w1 q k)
      = ((∑ q : Fin 64, s q * w1 (⟨q.val, by omega⟩ : Fin 129) k)
          + (∑ q : Fin 64, t q * w1 (⟨64 + q.val, by omega⟩ : Fin 129) k))
        + a * w1 (⟨128, by omega⟩ : Fin 129) k := by
  have h129 : (129 : Nat) = (64 + 64) + 1 := rfl
  rw [← Fin.sum_congr' (fun q : Fin 129 => cat3 s t a q * w1 q k) h129.symm, Fin.sum_univ_add, Fin.sum_univ_add]
  simp only [Finset.univ_unique, Finset.sum_singleton]
  refine congrArg₂ (· + ·) (congrArg₂ (· + ·) (Finset.sum_congr rfl fun q _ => ?_) (Finset.sum_congr rfl fun q _ => ?_)) ?_
  · have e1 : (Fin.cast h129.symm (Fin.castAdd 1 (Fin.castAdd 64 q)) : Fin 129) = ⟨q.val, by omega⟩ := Fin.ext rfl
    rw [e1]; unfold cat3; rw [dif_pos (show ((⟨q.val, by omega⟩ : Fin 129)).val < 64 from q.isLt)]
  · have e1 : (Fin.cast h129.symm (Fin.castAdd 1 (Fin.natAdd 64 q)) : Fin 129) = ⟨64 + q.val, by omega⟩ := Fin.ext rfl
    rw [e1]; unfold cat3
    rw [dif_neg (show ¬ ((⟨64 + q.val, by omega⟩ : Fin 129)).val < 64 by simp),
      dif_pos (show ((⟨64 + q.val, by omega⟩ : Fin 129)).val < 128 by have := q.isLt; simp; omega)]
    exact congrArg (fun z => t z * _) (Fin.ext (by simp))
  · have e1 : (Fin.cast h129.symm (Fin.natAdd (64 + 64) (default : Fin 1)) : Fin 129) = ⟨128, by omega⟩ := Fin.ext rfl
    rw [e1]; unfold cat3
    rw [dif_neg (show ¬ ((⟨128, by omega⟩ : Fin 129)).val < 64 by simp), dif_neg (show ¬ ((⟨128, by omega⟩ : Fin 129)).val < 128 by simp)]

/-- The two arrangements of an edge's features agree: the three weight pieces are W₁'s row blocks. -/
theorem edgeRowCat_eq (s t : Fin 64 → EReal) (a mk : EReal) (w1 : Fin 129 → Fin 64 → EReal) (b1 : Fin 64 → EReal)
    (w2 : Fin 64 → Fin 64 → EReal) (b2 : Fin 64 → EReal) (j : Fin 64) :
    edgeRowCat (cat3 s t a) mk w1 b1 w2 b2 j
      = edgeRow s t a mk (fun q k => w1 (⟨q.val, by omega⟩ : Fin 129) k) (fun q k => w1 (⟨64 + q.val, by omega⟩ : Fin 129) k)
          (fun k => w1 (⟨128, by omega⟩ : Fin 129) k) b1 w2 b2 j := by
  unfold edgeRowCat edgeRow
  refine congrArg (fun z => silu (z + _) * _) (Finset.sum_congr rfl fun k _ => ?_)
  refine congrArg (fun z => silu z * _) ?_
  unfold hiddenPre
  rw [sum_cat3]

/-! ## One node -/

/-- Entry `q` of cat(xr, ar). -/
def cat2 (xr ar : Fin 64 → EReal) (q : Fin 128) : EReal :=
  if h : q.val < 64 then xr ⟨q.val, h⟩ else ar ⟨q.val - 64, by omega⟩

/-- The node's output `j` over its concatenated row `c` = cat(xr, ar). -/
def nodeRow (xr : Fin 64 → EReal) (c : Fin 128 → EReal) (w1 : Fin 128 → Fin 64 → EReal) (b1 : Fin 64 → EReal)
    (w2 : Fin 64 → Fin 64 → EReal) (b2 : Fin 64 → EReal) (j : Fin 64) : EReal :=
  xr j + ((∑ k : Fin 64, silu ((∑ q : Fin 128, c q * w1 q k) + b1 k) * w2 k j) + b2 j)

end Cert.Layer

end
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.LibKeepdimsColumn.lean ====
/-
  A sum over the last axis kept as a column (jnp.sum(x, axis=1, keepdims=True)), read at an index.

  A lane sum of an [a, b] array along its second axis leaves an [a] vector; keepdims casts it to an [a, 1] column,
  which is then broadcast over b columns, or (on the host) transposed to a [1, a] row. Each of these re-layings reads its
  operand at the evident index, for any extents a and b:
    the lane sum at row p is the sum over the row,
    the [a] vector cast to [a, 1], at (i, u), is the vector at i,
    the [a, 1] column broadcast to [a, b], at (p, c), is the column at row p,
    the [a, 1] column transposed to [1, a], at (u, i), is the column at row i.
-/
import Idealize.ShloMosaic.Lib.Pipeline.Value
import Idealize.ShloMosaic.Lib.ValueIdx
import Idealize.ShloMosaic.PureOps.Ideal.Laws

noncomputable section

namespace Idealize.ShloMosaic.KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column transposed to a `[1, a]` row reads, at `(u, i)`, the column at row `i`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply _ x h _ _ fun c => match c with | ⟨0, _⟩ => rfl | ⟨1, _⟩ => rfl

/-- On the extended reals a lane sum of an `[a, b]` array along its second axis, from the neutral accumulator, reads at
    row `p` as the sum over `d` of the array at `(p, d)`. -/
theorem laneSum_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ d : Fin b, v (ix2 p d) := by
  rw [Ideal.multiReduction_add_single]
  refine Finset.sum_congr rfl fun d _ => congrArg v (funext fun c => Fin.ext ?_)
  match c with
  | ⟨0, _⟩ => rfl
  | ⟨1, _⟩ => rfl

end Idealize.ShloMosaic.KeepdimsColumn

end
-- ==== Proof.EdgeBody.lean ====
/-
  What the edge kernel's body computes from its loaded blocks, entry by entry over the extended reals: row `p` of the stored
  block is the edge row function of Layer.edgeRow at row `p` of the loaded blocks. The two aligned products into zero
  accumulators are sums over 64 columns; the attribute column broadcast along the row times the broadcast weight row is the
  extra term; the logistic times its argument is silu; the mask column broadcast along the row multiplies at the end.
-/
import proofs.«409949_j86620900426031_2_alg».proof.Proof.Gen.KernelIdeal.Skeleton
import proofs.«409949_j86620900426031_2_alg».proof.Proof.Layer
import proofs.«409949_j86620900426031_2_alg».proof.Proof.LibPlainDot
import proofs.«409949_j86620900426031_2_alg».proof.Proof.LibKeepdimsColumn
import Idealize.ShloMosaic.Lib.Pipeline.Value
import Idealize.ShloMosaic.Lib.ValueLayout

noncomputable section

open scoped BigOperators

namespace Cert.KernelIdeal.EdgeBody

open Idealize.ShloMosaic Idealize.ShloMosaic.ValueIdx Cert.KernelIdeal Cert.KernelIdeal.Gen Cert.Layer

/-- A logistic of a vector reads entry by entry. -/
theorem logistic_apply {s : Shape} {φ : FTy} (a : FVec Ideal s φ) (i : s.Idx) : logistic a i = Ideal.logistic (a i) := rfl

/-- A block of 8000 rows times a 64 x 64 matrix, into zero: the sum over the 64 columns. -/
theorem mm (L : FVec Ideal S8000x64 .f32) (R : FVec Ideal S64x64 .f32) (p : Fin 8000) (k : Fin 64) :
    matmul (F := Ideal) dot_S8000x64_S64x64_S8000x64_1_0_0_1_n_n none L R (constant S8000x64 .f32 0x00000000#32) (ix2 p k)
      = ∑ q : Fin 64, L (ix2 p q) * R (ix2 q k) :=
  PlainDot.matmul_zero_apply 8000 64 64 none L R p k

/-- A column broadcast along the rows reads its row's entry. -/
theorem bcol (v : FVec Ideal S8000x1 .f32) (p : Fin 8000) (k : Fin 64) :
    broadcastTo S8000x64 v broadcasts_S8000x1_S8000x64 (ix2 p k) = v (ix2 p (0 : Fin 1)) :=
  KeepdimsColumn.broadcastTo_a1_ab_apply v _ p k

/-- A row broadcast down the columns reads its column's entry. -/
theorem brow (v : FVec Ideal S1x64 .f32) (p : Fin 8000) (k : Fin 64) :
    broadcastTo S8000x64 v broadcasts_S1x64_S8000x64 (ix2 p k) = v (ix2 (0 : Fin 1) k) :=
  broadcastTo_1b_ab_apply v _ p k

/-- Column 0 of the two-column block. -/
theorem col0 (v : FVec Ideal S8000x2 .f32) (p : Fin 8000) :
    extractStridedSlice S8000x1 ![0, 0] v slices_S8000x2_o0_0_S8000x1 (ix2 p (0 : Fin 1)) = v (ix2 p (0 : Fin 2)) :=
  slice2_axis1_apply 0 v _ p 0 0 rfl

/-- Column 1 of the two-column block. -/
theorem col1 (v : FVec Ideal S8000x2 .f32) (p : Fin 8000) :
    extractStridedSlice S8000x1 ![0, 1] v slices_S8000x2_o0_1_S8000x1 (ix2 p (0 : Fin 1)) = v (ix2 p (1 : Fin 2)) :=
  slice2_axis1_apply 1 v _ p 0 1 rfl

/-- The body's payload at row `p`, column `j` of the block is the edge row function of row `p` of the loaded blocks. -/
theorem pay_apply (x0 x1 : Vec Ideal S8000x64 .f32) (x2 : Vec Ideal S8000x2 .f32) (x3 x4 : Vec Ideal S64x64 .f32)
    (x5 x6 : Vec Ideal S1x64 .f32) (x7 : Vec Ideal S64x64 .f32) (x8 : Vec Ideal S1x64 .f32) (p : Fin 8000) (j : Fin 64) :
    k0_pay1 (F := Ideal) x0 x1 x2 x3 x4 x5 x6 x7 x8 (ix2 p j)
      = edgeRow (fun q => x0 (ix2 p q)) (fun q => x1 (ix2 p q)) (x2 (ix2 p (0 : Fin 2))) (x2 (ix2 p (1 : Fin 2)))
          (fun q k => x3 (ix2 q k)) (fun q k => x4 (ix2 q k)) (fun k => x5 (ix2 (0 : Fin 1) k)) (fun k => x6 (ix2 (0 : Fin 1) k))
          (fun k j => x7 (ix2 k j)) (fun k => x8 (ix2 (0 : Fin 1) k)) j := by
  unfold k0_pay1 edgeRow silu hiddenPre
  simp only [shapeCast_self, mulf_apply, addf_apply, logistic_apply, mm, bcol, brow, col0, col1]

end Cert.KernelIdeal.EdgeBody

end
-- ==== Proof.EdgeArray.lean ====
/-
  The edge region's output array after the region, as one function of the arrays the region reads: entry (e, j) is the edge
  row function at row e of src, tgt and the attr/mask pair and at the whole weight arrays. Grid point t stores rows
  8000 t .. 8000 t + 7999; its input blocks are those rows of src, tgt and the pair, and the weight blocks are the whole
  weight arrays; the hundred blocks cover the array.
-/
import proofs.«409949_j86620900426031_2_alg».proof.Proof.Gen.KernelIdeal.Frame
import proofs.«409949_j86620900426031_2_alg».proof.Proof.EdgeBody
import Idealize.ShloMosaic.Lib.Pipeline.Value

set_option maxRecDepth 16384

noncomputable section

namespace Cert.KernelIdeal.EdgeArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layer

/-- The edge features of all 800000 edges from the gathered endpoint features, the attr/mask pair and the weights. -/
def edgeArr (src tgt : FVec Ideal S800000x64 .f32) (am : FVec Ideal S800000x2 .f32) (ws wt : FVec Ideal S64x64 .f32)
    (wa b1 : FVec Ideal S1x64 .f32) (w2 : FVec Ideal S64x64 .f32) (b2 : FVec Ideal S1x64 .f32) : FVec Ideal S800000x64 .f32 :=
  fun i => edgeRow (fun q => src (ix2 (⟨(i 0).val, (i 0).isLt⟩ : Fin 800000) q)) (fun q => tgt (ix2 (⟨(i 0).val, (i 0).isLt⟩ : Fin 800000) q))
    (am (ix2 (⟨(i 0).val, (i 0).isLt⟩ : Fin 800000) (0 : Fin 2))) (am (ix2 (⟨(i 0).val, (i 0).isLt⟩ : Fin 800000) (1 : Fin 2)))
    (fun q k => ws (ix2 q k)) (fun q k => wt (ix2 q k)) (fun k => wa (ix2 (0 : Fin 1) k)) (fun k => b1 (ix2 (0 : Fin 1) k))
    (fun k j => w2 (ix2 k j)) (fun k => b2 (ix2 (0 : Fin 1) k)) (⟨(i 1).val, (i 1).isLt⟩ : Fin 64)

theorem hz : (![0, 0] : Fin 2 → Nat) = fun _ => 0 := funext fun a => by fin_cases a <;> rfl

/-- The printed index maps over the grid: the row-blocked windows sit at block (t, 0), the weight windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row p of grid point t's block is row 8000 t + p of the array. -/
def rowOf (t : Fin cfg0.N) (p : Fin 8000) : Fin 800000 :=
  ⟨t.val * 8000 + p.val, by have ht : t.val < 100 := t.isLt; have := p.isLt; omega⟩

variable (V : (c : Dev nD) → (b : Ref sig .tc) → Buf (Elt Ideal) ((c : Thread nD τ).loc b))

theorem rd_src (c : Dev nD) (t : Fin cfg0.N) (p : Fin 8000) (q : Fin 64) :
    iblk0 (F := Ideal) V c 0 t (ix2 p q) = (V c main_v4 : FVec Ideal S800000x64 .f32) (ix2 (rowOf t p) q) := by
  show V c main_v4 (((cfg0.win 0).blk t).view.emb (ix2 p q)) = _
  refine congrArg (V c main_v4) (funext fun a => Fin.ext ?_)
  obtain ⟨e0, e1, -⟩ := idx_facts t
  match a with
  | ⟨0, _⟩ => show win0_0.index t (0 : Fin 2) * 8000 + 1 * p.val = t.val * 8000 + p.val; rw [e0]; omega
  | ⟨1, _⟩ => show win0_0.index t (1 : Fin 2) * 64 + 1 * q.val = q.val; rw [e1]; omega

theorem rd_tgt (c : Dev nD) (t : Fin cfg0.N) (p : Fin 8000) (q : Fin 64) :
    iblk0 (F := Ideal) V c 1 t (ix2 p q) = (V c main_v5 : FVec Ideal S800000x64 .f32) (ix2 (rowOf t p) q) := by
  show V c main_v5 (((cfg0.win 1).blk t).view.emb (ix2 p q)) = _
  refine congrArg (V c main_v5) (funext fun a => Fin.ext ?_)
  obtain ⟨-, -, e0, e1, -⟩ := idx_facts t
  match a with
  | ⟨0, _⟩ => show win0_1.index t (0 : Fin 2) * 8000 + 1 * p.val = t.val * 8000 + p.val; rw [e0]; omega
  | ⟨1, _⟩ => show win0_1.index t (1 : Fin 2) * 64 + 1 * q.val = q.val; rw [e1]; omega

theorem rd_am (c : Dev nD) (t : Fin cfg0.N) (p : Fin 8000) (u : Fin 2) :
    iblk0 (F := Ideal) V c 2 t (ix2 p u) = (V c main_v6 : FVec Ideal S800000x2 .f32) (ix2 (rowOf t p) u) := by
  show V c main_v6 (((cfg0.win 2).blk t).view.emb (ix2 p u)) = _
  refine congrArg (V c main_v6) (funext fun a => Fin.ext ?_)
  obtain ⟨-, -, -, -, e0, e1, -⟩ := idx_facts t
  match a with
  | ⟨0, _⟩ => show win0_2.index t (0 : Fin 2) * 8000 + 1 * p.val = t.val * 8000 + p.val; rw [e0]; omega
  | ⟨1, _⟩ => show win0_2.index t (1 : Fin 2) * 2 + 1 * u.val = u.val; rw [e1]; omega

theorem rd_ws (c : Dev nD) (t : Fin cfg0.N) (q k : Fin 64) :
    iblk0 (F := Ideal) V c 3 t (ix2 q k) = (V c main_v7 : FVec Ideal S64x64 .f32) (ix2 q k) := by
  show V c main_v7 (((cfg0.win 3).blk t).view.emb (ix2 q k)) = _
  refine congrArg (V c main_v7) (funext fun a => Fin.ext ?_)
  obtain ⟨-, -, -, -, -, -, e0, e1, -⟩ := idx_facts t
  match a with
  | ⟨0, _⟩ => show win0_3.index t (0 : Fin 2) * 64 + 1 * q.val = q.val; rw [e0]; omega
  | ⟨1, _⟩ => show win0_3.index t (1 : Fin 2) * 64 + 1 * k.val = k.val; rw [e1]; omega

theorem rd_wt (c : Dev nD) (t : Fin cfg0.N) (q k : Fin 64) :
    iblk0 (F := Ideal) V c 4 t (ix2 q k) = (V c main_v8 : FVec Ideal S64x64 .f32) (ix2 q k) := by
  show V c main_v8 (((cfg0.win 4).blk t).view.emb (ix2 q k)) = _
  refine congrArg (V c main_v8) (funext fun a => Fin.ext ?_)
  obtain ⟨-, -, -, -, -, -, -, -, e0, e1, -⟩ := idx_facts t
  match a with
  | ⟨0, _⟩ => show win0_4.index t (0 : Fin 2) * 64 + 1 * q.val = q.val; rw [e0]; omega
  | ⟨1, _⟩ => show win0_4.index t (1 : Fin 2) * 64 + 1 * k.val = k.val; rw [e1]; omega

theorem rd_wa (c : Dev nD) (t : Fin cfg0.N) (u : Fin 1) (k : Fin 64) :
    iblk0 (F := Ideal) V c 5 t (ix2 u k) = (V c main_v9 : FVec Ideal S1x64 .f32) (ix2 u k) := by
  show V c main_v9 (((cfg0.win 5).blk t).view.emb (ix2 u k)) = _
  refine congrArg (V c main_v9) (funext fun a => Fin.ext ?_)
  obtain ⟨-, -, -, -, -, -, -, -, -, -, e0, e1, -⟩ := idx_facts t
  match a with
  | ⟨0, _⟩ => show win0_5.index t (0 : Fin 2) * 1 + 1 * u.val = u.val; rw [e0]; omega
  | ⟨1, _⟩ => show win0_5.index t (1 : Fin 2) * 64 + 1 * k.val = k.val; rw [e1]; omega

theorem rd_b1 (c : Dev nD) (t : Fin cfg0.N) (u : Fin 1) (k : Fin 64) :
    iblk0 (F := Ideal) V c 6 t (ix2 u k) = (V c main_v10 : FVec Ideal S1x64 .f32) (ix2 u k) := by
  show V c main_v10 (((cfg0.win 6).blk t).view.emb (ix2 u k)) = _
  refine congrArg (V c main_v10) (funext fun a => Fin.ext ?_)
  obtain ⟨-, -, -, -, -, -, -, -, -, -, -, -, e0, e1, -⟩ := idx_facts t
  match a with
  | ⟨0, _⟩ => show win0_6.index t (0 : Fin 2) * 1 + 1 * u.val = u.val; rw [e0]; omega
  | ⟨1, _⟩ => show win0_6.index t (1 : Fin 2) * 64 + 1 * k.val = k.val; rw [e1]; omega

theorem rd_w2 (c : Dev nD) (t : Fin cfg0.N) (q k : Fin 64) :
    iblk0 (F := Ideal) V c 7 t (ix2 q k) = (V c main_arg6 : FVec Ideal S64x64 .f32) (ix2 q k) := by
  show V c main_arg6 (((cfg0.win 7).blk t).view.emb (ix2 q k)) = _
  refine congrArg (V c main_arg6) (funext fun a => Fin.ext ?_)
  obtain ⟨-, -, -, -, -, -, -, -, -, -, -, -, -, -, e0, e1, -⟩ := idx_facts t
  match a with
  | ⟨0, _⟩ => show win0_7.index t (0 : Fin 2) * 64 + 1 * q.val = q.val; rw [e0]; omega
  | ⟨1, _⟩ => show win0_7.index t (1 : Fin 2) * 64 + 1 * k.val = k.val; rw [e1]; omega

theorem rd_b2 (c : Dev nD) (t : Fin cfg0.N) (u : Fin 1) (k : Fin 64) :
    iblk0 (F := Ideal) V c 8 t (ix2 u k) = (V c main_v11 : FVec Ideal S1x64 .f32) (ix2 u k) := by
  show V c main_v11 (((cfg0.win 8).blk t).view.emb (ix2 u k)) = _
  refine congrArg (V c main_v11) (funext fun a => Fin.ext ?_)
  obtain ⟨-, -, -, -, -, -, -, -, -, -, -, -, -, -, -, -, e0, e1, -⟩ := idx_facts t
  match a with
  | ⟨0, _⟩ => show win0_8.index t (0 : Fin 2) * 1 + 1 * u.val = u.val; rw [e0]; omega
  | ⟨1, _⟩ => show win0_8.index t (1 : Fin 2) * 64 + 1 * k.val = k.val; rw [e1]; omega

/-- Entry (p, j) of grid point t's output block sits at (8000 t + p, j) of the array. -/
theorem emb_out (t : Fin cfg0.N) (p : Fin 8000) (j : Fin 64) :
    (((cfg0.win 9).blk t).view.emb (ix2 p j) : S800000x64.Idx) = ix2 (rowOf t p) j := by
  refine funext fun a => Fin.ext ?_
  obtain ⟨-, -, -, -, -, -, -, -, -, -, -, -, -, -, -, -, -, -, e0, e1⟩ := idx_facts t
  match a with
  | ⟨0, _⟩ => show win0_9.index t (0 : Fin 2) * 8000 + 1 * p.val = t.val * 8000 + p.val; rw [e0]; omega
  | ⟨1, _⟩ => show win0_9.index t (1 : Fin 2) * 64 + 1 * j.val = j.val; rw [e1]; omega

/-- WHAT POINT t WRITES BACK is block t of the edge features of the arrays as the region finds them. -/
theorem flushed_eq (c : Dev nD) (t : Fin cfg0.N) :
    (dat0 (F := Ideal) V c).flushed 9 t = ((cfg0.win 9).blk t).view.read (Elt Ideal)
      (edgeArr (V c main_v4) (V c main_v5) (V c main_v6) (V c main_v7) (V c main_v8) (V c main_v9) (V c main_v10) (V c main_arg6) (V c main_v11)) := by
  show (cfg0.win 9).cut (grid0.coords t) ((dat0 V c).after 9 t) = _
  rw [after0_9]
  unfold out0_9
  rw [View.canon_unit_zero hz]
  simp only [View.ld_unit_zero (S := S8000x64) hz, View.ld_unit_zero (S := S8000x2) hz, View.ld_unit_zero (S := S64x64) hz, View.ld_unit_zero (S := S1x64) hz]
  funext y
  obtain ⟨p, j, rfl⟩ : ∃ (p : Fin 8000) (j : Fin 64), y = ix2 p j := ⟨y 0, y 1, eq_ix2 y⟩
  show k0_pay1 (iblk0 V c 0 t) (iblk0 V c 1 t) (iblk0 V c 2 t) (iblk0 V c 3 t) (iblk0 V c 4 t) (iblk0 V c 5 t) (iblk0 V c 6 t) (iblk0 V c 7 t) (iblk0 V c 8 t) (ix2 p j)
    = edgeArr (V c main_v4) (V c main_v5) (V c main_v6) (V c main_v7) (V c main_v8) (V c main_v9) (V c main_v10) (V c main_arg6) (V c main_v11)
        (((cfg0.win 9).blk t).view.emb (ix2 p j))
  rw [emb_out]
  refine (EdgeBody.pay_apply (iblk0 V c 0 t) (iblk0 V c 1 t) (iblk0 V c 2 t) (iblk0 V c 3 t) (iblk0 V c 4 t) (iblk0 V c 5 t) (iblk0 V c 6 t) (iblk0 V c 7 t) (iblk0 V c 8 t) p j).trans ?_
  unfold edgeArr
  simp only [rd_src, rd_tgt, rd_am, rd_ws, rd_wt, rd_wa, rd_b1, rd_w2, rd_b2]

/-- An index of the array is in point t's block iff each coordinate is in the block's range on its axis. -/
theorem mem_blk (t : Fin cfg0.N) (i : S800000x64.Idx) :
    i ∈ ((cfg0.win 9).blk t).view.set ↔ ∀ a : Fin 2, win0_9.index t a * S8000x64.size a ≤ (i a).val ∧ (i a).val < win0_9.index t a * S8000x64.size a + S8000x64.size a := by
  show i ∈ ((View.whole main_v12).slice (win0_9.rect t)).set ↔ _
  rw [View.set_slice_whole, Rect.mem_set_unit]
  exact Iff.rfl

/-- Every entry of the array is in the block of the point its row falls in. -/
theorem cover (i : S800000x64.Idx) : ∃ t : Fin cfg0.N, (cfg0.win 9).flush t = true ∧ i ∈ ((cfg0.win 9).blk t).view.set := by
  have hi0 : (i 0).val < 800000 := (i 0).isLt
  have hi1 : (i 1).val < 64 := (i 1).isLt
  have ht : (i 0).val / 8000 < 100 := by omega
  refine ⟨⟨(i 0).val / 8000, ht⟩, flush0_9 _, ?_⟩
  rw [mem_blk]
  obtain ⟨-, -, -, -, -, -, -, -, -, -, -, -, -, -, -, -, -, -, e0, e1⟩ := idx_facts ⟨(i 0).val / 8000, ht⟩
  intro a
  match a with
  | ⟨0, _⟩ =>
    show win0_9.index ⟨(i 0).val / 8000, ht⟩ (0 : Fin 2) * 8000 ≤ (i 0).val ∧ (i 0).val < win0_9.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win0_9.index ⟨(i 0).val / 8000, ht⟩ (1 : Fin 2) * 64 ≤ (i 1).val ∧ (i 1).val < win0_9.index ⟨(i 0).val / 8000, ht⟩ (1 : Fin 2) * 64 + 64
    rw [e1]; omega

/-- THE ARRAY after the region: the edge features of the arrays as the region finds them. -/
theorem final (c : Dev nD) : (dat0 (F := Ideal) V c).arrAt 9 cfg0.N
    = edgeArr (V c main_v4) (V c main_v5) (V c main_v6) (V c main_v7) (V c main_v8) (V c main_v9) (V c main_v10) (V c main_arg6) (V c main_v11) :=
  (dat0 (F := Ideal) V c).arrAt_eq_of_cover 9 _ (fun t _ => flushed_eq V c t) cover

end Cert.KernelIdeal.EdgeArray

end
-- ==== Proof.Concat.lean ====
/-
  Concatenations along the columns, read at an entry: row `r` of cat(x, a) is cat of the rows, and row `r` of cat(s, t, c) with
  a one-column last piece is cat of the rows and that column's entry.
-/
import proofs.«409949_j86620900426031_2_alg».proof.Proof.Layer
import Idealize.ShloMosaic.Lib.Pipeline.Value
import Idealize.ShloMosaic.Lib.ValueIdx

noncomputable section

namespace Cert.Layer

open Idealize.ShloMosaic Idealize.ShloMosaic.ValueIdx

/-- Two [n, 64] arrays side by side: entry (r, q) is entry q of the concatenated rows. -/
theorem concat2_apply {n : Nat} (x a : (⟨2, ![n, 64]⟩ : Shape).Idx → EReal)
    (h : Shape.Concatenates [(⟨2, ![n, 64]⟩ : Shape), (⟨2, ![n, 64]⟩ : Shape)] (⟨2, ![n, 128]⟩ : Shape) (1 : Fin 2)) (r : Fin n) (q : Fin 128) :
    concatenate (⟨2, ![n, 128]⟩ : Shape) (1 : Fin 2) [⟨(⟨2, ![n, 64]⟩ : Shape), x⟩, ⟨(⟨2, ![n, 64]⟩ : Shape), a⟩] h (ix2 r q)
      = cat2 (fun q => x (ix2 r q)) (fun q => a (ix2 r q)) q := by
  unfold cat2
  by_cases hq : q.val < 64
  · rw [dif_pos hq]
    exact concatenate_pair_apply_left (1 : Fin 2) x a h (ix2 r q) rfl (ix2 r ⟨q.val, hq⟩) (fun b => by
      match b with
      | ⟨0, _⟩ => rfl
      | ⟨1, _⟩ => rfl)
  · rw [dif_neg hq]
    exact concatenate_pair_apply_right (1 : Fin 2) x a h (ix2 r q) rfl rfl (ix2 r ⟨q.val - 64, by omega⟩) (fun b hb => by
      match b with
      | ⟨0, _⟩ => rfl
      | ⟨1, _⟩ => exact absurd rfl hb) (by show q.val - 64 + 64 = q.val; omega)

/-- Two [n, 64] arrays and an [n, 1] column side by side: entry (r, q) is entry q of the concatenated rows. -/
theorem concat3_apply {n : Nat} (s t : (⟨2, ![n, 64]⟩ : Shape).Idx → EReal) (c : (⟨2, ![n, 1]⟩ : Shape).Idx → EReal)
    (h : Shape.Concatenates [(⟨2, ![n, 64]⟩ : Shape), (⟨2, ![n, 64]⟩ : Shape), (⟨2, ![n, 1]⟩ : Shape)] (⟨2, ![n, 129]⟩ : Shape) (1 : Fin 2))
    (r : Fin n) (q : Fin 129) :
    concatenate (⟨2, ![n, 129]⟩ : Shape) (1 : Fin 2)
        [⟨(⟨2, ![n, 64]⟩ : Shape), s⟩, ⟨(⟨2, ![n, 64]⟩ : Shape), t⟩, ⟨(⟨2, ![n, 1]⟩ : Shape), c⟩] h (ix2 r q)
      = cat3 (fun q => s (ix2 r q)) (fun q => t (ix2 r q)) (c (ix2 r (0 : Fin 1))) q := by
  unfold cat3
  by_cases hq : q.val < 64
  · rw [dif_pos hq]
    exact concatenate_apply_piece (t := (⟨2, ![n, 129]⟩ : Shape)) (1 : Fin 2) [⟨(⟨2, ![n, 64]⟩ : Shape), s⟩, ⟨(⟨2, ![n, 64]⟩ : Shape), t⟩, ⟨(⟨2, ![n, 1]⟩ : Shape), c⟩] h (ix2 r q) 0 (by simp) _ s rfl rfl 0 rfl (ix2 r ⟨q.val, hq⟩) (fun b hb => by
      match b with
      | ⟨0, _⟩ => rfl
      | ⟨1, _⟩ => exact absurd rfl hb) (by show 0 + q.val = q.val; omega)
  · rw [dif_neg hq]
    by_cases hq' : q.val < 128
    · rw [dif_pos hq']
      exact concatenate_apply_piece (t := (⟨2, ![n, 129]⟩ : Shape)) (1 : Fin 2) [⟨(⟨2, ![n, 64]⟩ : Shape), s⟩, ⟨(⟨2, ![n, 64]⟩ : Shape), t⟩, ⟨(⟨2, ![n, 1]⟩ : Shape), c⟩] h (ix2 r q) 1 (by simp) _ t rfl rfl 64 rfl (ix2 r ⟨q.val - 64, by omega⟩) (fun b hb => by
        match b with
        | ⟨0, _⟩ => rfl
        | ⟨1, _⟩ => exact absurd rfl hb) (by show 64 + (q.val - 64) = q.val; omega)
    · rw [dif_neg hq']
      exact concatenate_apply_piece (t := (⟨2, ![n, 129]⟩ : Shape)) (1 : Fin 2) [⟨(⟨2, ![n, 64]⟩ : Shape), s⟩, ⟨(⟨2, ![n, 64]⟩ : Shape), t⟩, ⟨(⟨2, ![n, 1]⟩ : Shape), c⟩] h (ix2 r q) 2 (by simp) _ c rfl rfl 128 rfl (ix2 r (0 : Fin 1)) (fun b hb => by
        match b with
        | ⟨0, _⟩ => rfl
        | ⟨1, _⟩ => exact absurd rfl hb) (by show 128 + 0 = q.val; have := q.isLt; omega)

end Cert.Layer

end
-- ==== Proof.NodeBody.lean ====
/-
  What the node kernel's body computes from its loaded blocks, entry by entry over the extended reals: row `p` of the stored
  block is Layer.nodeRow at row `p` of the loaded blocks. The node block and the aggregate block are laid side by side, the
  128-column product into a zero accumulator is the sum over the concatenated row, the logistic times its argument is silu, the
  second product is a sum over 64 columns, and the node block is added at the end.
-/
import proofs.«409949_j86620900426031_2_alg».proof.Proof.Gen.KernelIdeal.Skeleton
import proofs.«409949_j86620900426031_2_alg».proof.Proof.Layer
import proofs.«409949_j86620900426031_2_alg».proof.Proof.Concat
import proofs.«409949_j86620900426031_2_alg».proof.Proof.LibPlainDot
import Idealize.ShloMosaic.Lib.Pipeline.Value
import Idealize.ShloMosaic.Lib.ValueLayout

noncomputable section

open scoped BigOperators

namespace Cert.KernelIdeal.NodeBody

open Idealize.ShloMosaic Idealize.ShloMosaic.ValueIdx Cert.KernelIdeal Cert.KernelIdeal.Gen Cert.Layer

/-- A logistic of a vector reads entry by entry. -/
theorem logistic_apply {s : Shape} {φ : FTy} (a : FVec Ideal s φ) (i : s.Idx) : logistic a i = Ideal.logistic (a i) := rfl

/-- A block of 5000 concatenated rows times the 128 x 64 matrix, into zero: the sum over the 128 columns. -/
theorem mm1 (L : FVec Ideal S5000x128 .f32) (R : FVec Ideal S128x64 .f32) (p : Fin 5000) (k : Fin 64) :
    matmul (F := Ideal) dot_S5000x128_S128x64_S5000x64_1_0_0_1_n_n none L R (constant S5000x64 .f32 0x00000000#32) (ix2 p k)
      = ∑ q : Fin 128, L (ix2 p q) * R (ix2 q k) :=
  PlainDot.matmul_zero_apply 5000 128 64 none L R p k

/-- A block of 5000 rows times a 64 x 64 matrix, into zero: the sum over the 64 columns. -/
theorem mm2 (L : FVec Ideal S5000x64 .f32) (R : FVec Ideal S64x64 .f32) (p : Fin 5000) (k : Fin 64) :
    matmul (F := Ideal) dot_S5000x64_S64x64_S5000x64_1_0_0_1_n_n none L R (constant S5000x64 .f32 0x00000000#32) (ix2 p k)
      = ∑ q : Fin 64, L (ix2 p q) * R (ix2 q k) :=
  PlainDot.matmul_zero_apply 5000 64 64 none L R p k

/-- A row broadcast down the columns reads its column's entry. -/
theorem brow (v : FVec Ideal S1x64 .f32) (p : Fin 5000) (k : Fin 64) :
    broadcastTo S5000x64 v broadcasts_S1x64_S5000x64 (ix2 p k) = v (ix2 (0 : Fin 1) k) :=
  broadcastTo_1b_ab_apply v _ p k

/-- The two blocks side by side, at row `p`. -/
theorem cat (x a : FVec Ideal S5000x64 .f32) (p : Fin 5000) (q : Fin 128) :
    concatenate S5000x128 1 [⟨S5000x64, x⟩, ⟨S5000x64, a⟩] concatenates_S5000x64_S5000x64_S5000x128_d1 (ix2 p q)
      = cat2 (fun q => x (ix2 p q)) (fun q => a (ix2 p q)) q :=
  concat2_apply x a _ p q

/-- The body's payload at row `p`, column `j` of the block is the node row function of row `p` of the loaded blocks. -/
theorem pay_apply (v0 v1 : Vec Ideal S5000x64 .f32) (v4 : Vec Ideal S128x64 .f32) (v6 : Vec Ideal S1x64 .f32)
    (v12 : Vec Ideal S5000x64 .f32) (v13 : Vec Ideal S64x64 .f32) (v15 : Vec Ideal S1x64 .f32) (p : Fin 5000) (j : Fin 64) :
    k1_pay1 (F := Ideal) v0 v1 v4 v6 v12 v13 v15 (ix2 p j)
      = nodeRow (fun q => v12 (ix2 p q)) (cat2 (fun q => v0 (ix2 p q)) (fun q => v1 (ix2 p q)))
          (fun q k => v4 (ix2 q k)) (fun k => v6 (ix2 (0 : Fin 1) k)) (fun k j => v13 (ix2 k j)) (fun k => v15 (ix2 (0 : Fin 1) k)) j := by
  unfold k1_pay1 nodeRow silu
  simp only [shapeCast_self, mulf_apply, addf_apply, logistic_apply, mm1, mm2, brow, cat]

end Cert.KernelIdeal.NodeBody

end
-- ==== Proof.NodeArray.lean ====
/-
  The node region's output array after the region, as one function of the arrays the region reads: entry (n, j) is the node
  row function at row n of x and of the aggregated messages and at the whole weight arrays. Grid point t stores rows
  5000 t .. 5000 t + 4999; its input blocks are those rows of x and of the aggregate, and the weight blocks are the whole
  weight arrays; the ten blocks cover the array.
-/
import proofs.«409949_j86620900426031_2_alg».proof.Proof.Gen.KernelIdeal.Frame
import proofs.«409949_j86620900426031_2_alg».proof.Proof.NodeBody
import Idealize.ShloMosaic.Lib.Pipeline.Value

set_option maxRecDepth 16384

noncomputable section

namespace Cert.KernelIdeal.NodeArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layer

/-- The node outputs of all 50000 nodes from x, the aggregated messages and the weights. -/
def nodeArr (x agg : FVec Ideal S50000x64 .f32) (w1 : FVec Ideal S128x64 .f32) (b1 : FVec Ideal S1x64 .f32)
    (w2 : FVec Ideal S64x64 .f32) (b2 : FVec Ideal S1x64 .f32) : FVec Ideal S50000x64 .f32 :=
  fun i => nodeRow (fun q => x (ix2 (⟨(i 0).val, (i 0).isLt⟩ : Fin 50000) q))
    (cat2 (fun q => x (ix2 (⟨(i 0).val, (i 0).isLt⟩ : Fin 50000) q)) (fun q => agg (ix2 (⟨(i 0).val, (i 0).isLt⟩ : Fin 50000) q)))
    (fun q k => w1 (ix2 q k)) (fun k => b1 (ix2 (0 : Fin 1) k)) (fun k j => w2 (ix2 k j)) (fun k => b2 (ix2 (0 : Fin 1) k))
    (⟨(i 1).val, (i 1).isLt⟩ : Fin 64)

theorem hz : (![0, 0] : Fin 2 → Nat) = fun _ => 0 := funext fun a => by fin_cases a <;> rfl

/-- The printed index maps over the grid: the row-blocked windows sit at block (t, 0), the weight windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of grid point t's block is row 5000 t + p of the array. -/
def rowOf (t : Fin cfg1.N) (p : Fin 5000) : Fin 50000 :=
  ⟨t.val * 5000 + p.val, by have ht : t.val < 10 := t.isLt; have := p.isLt; omega⟩

variable (V : (c : Dev nD) → (b : Ref sig .tc) → Buf (Elt Ideal) ((c : Thread nD τ).loc b))

theorem rd_x (c : Dev nD) (t : Fin cfg1.N) (p : Fin 5000) (q : Fin 64) :
    iblk1 (F := Ideal) V c 0 t (ix2 p q) = (V c main_arg0 : FVec Ideal S50000x64 .f32) (ix2 (rowOf t p) q) := by
  show V c main_arg0 (((cfg1.win 0).blk t).view.emb (ix2 p q)) = _
  refine congrArg (V c main_arg0) (funext fun a => Fin.ext ?_)
  obtain ⟨e0, e1, -⟩ := idx_facts t
  match a with
  | ⟨0, _⟩ => show win1_0.index t (0 : Fin 2) * 5000 + 1 * p.val = t.val * 5000 + p.val; rw [e0]; omega
  | ⟨1, _⟩ => show win1_0.index t (1 : Fin 2) * 64 + 1 * q.val = q.val; rw [e1]; omega

theorem rd_agg (c : Dev nD) (t : Fin cfg1.N) (p : Fin 5000) (q : Fin 64) :
    iblk1 (F := Ideal) V c 1 t (ix2 p q) = (V c main_v15 : FVec Ideal S50000x64 .f32) (ix2 (rowOf t p) q) := by
  show V c main_v15 (((cfg1.win 1).blk t).view.emb (ix2 p q)) = _
  refine congrArg (V c main_v15) (funext fun a => Fin.ext ?_)
  obtain ⟨-, -, e0, e1, -⟩ := idx_facts t
  match a with
  | ⟨0, _⟩ => show win1_1.index t (0 : Fin 2) * 5000 + 1 * p.val = t.val * 5000 + p.val; rw [e0]; omega
  | ⟨1, _⟩ => show win1_1.index t (1 : Fin 2) * 64 + 1 * q.val = q.val; rw [e1]; omega

theorem rd_w1 (c : Dev nD) (t : Fin cfg1.N) (q : Fin 128) (k : Fin 64) :
    iblk1 (F := Ideal) V c 2 t (ix2 q k) = (V c main_arg8 : FVec Ideal S128x64 .f32) (ix2 q k) := by
  show V c main_arg8 (((cfg1.win 2).blk t).view.emb (ix2 q k)) = _
  refine congrArg (V c main_arg8) (funext fun a => Fin.ext ?_)
  obtain ⟨-, -, -, -, e0, e1, -⟩ := idx_facts t
  match a with
  | ⟨0, _⟩ => show win1_2.index t (0 : Fin 2) * 128 + 1 * q.val = q.val; rw [e0]; omega
  | ⟨1, _⟩ => show win1_2.index t (1 : Fin 2) * 64 + 1 * k.val = k.val; rw [e1]; omega

theorem rd_b1 (c : Dev nD) (t : Fin cfg1.N) (u : Fin 1) (k : Fin 64) :
    iblk1 (F := Ideal) V c 3 t (ix2 u k) = (V c main_v16 : FVec Ideal S1x64 .f32) (ix2 u k) := by
  show V c main_v16 (((cfg1.win 3).blk t).view.emb (ix2 u k)) = _
  refine congrArg (V c main_v16) (funext fun a => Fin.ext ?_)
  obtain ⟨-, -, -, -, -, -, e0, e1, -⟩ := idx_facts t
  match a with
  | ⟨0, _⟩ => show win1_3.index t (0 : Fin 2) * 1 + 1 * u.val = u.val; rw [e0]; omega
  | ⟨1, _⟩ => show win1_3.index t (1 : Fin 2) * 64 + 1 * k.val = k.val; rw [e1]; omega

theorem rd_w2 (c : Dev nD) (t : Fin cfg1.N) (q k : Fin 64) :
    iblk1 (F := Ideal) V c 4 t (ix2 q k) = (V c main_arg10 : FVec Ideal S64x64 .f32) (ix2 q k) := by
  show V c main_arg10 (((cfg1.win 4).blk t).view.emb (ix2 q k)) = _
  refine congrArg (V c main_arg10) (funext fun a => Fin.ext ?_)
  obtain ⟨-, -, -, -, -, -, -, -, e0, e1, -⟩ := idx_facts t
  match a with
  | ⟨0, _⟩ => show win1_4.index t (0 : Fin 2) * 64 + 1 * q.val = q.val; rw [e0]; omega
  | ⟨1, _⟩ => show win1_4.index t (1 : Fin 2) * 64 + 1 * k.val = k.val; rw [e1]; omega

theorem rd_b2 (c : Dev nD) (t : Fin cfg1.N) (u : Fin 1) (k : Fin 64) :
    iblk1 (F := Ideal) V c 5 t (ix2 u k) = (V c main_v17 : FVec Ideal S1x64 .f32) (ix2 u k) := by
  show V c main_v17 (((cfg1.win 5).blk t).view.emb (ix2 u k)) = _
  refine congrArg (V c main_v17) (funext fun a => Fin.ext ?_)
  obtain ⟨-, -, -, -, -, -, -, -, -, -, e0, e1, -⟩ := idx_facts t
  match a with
  | ⟨0, _⟩ => show win1_5.index t (0 : Fin 2) * 1 + 1 * u.val = u.val; rw [e0]; omega
  | ⟨1, _⟩ => show win1_5.index t (1 : Fin 2) * 64 + 1 * k.val = k.val; rw [e1]; omega

/-- Entry (p, j) of grid point t's output block sits at (5000 t + p, j) of the array. -/
theorem emb_out (t : Fin cfg1.N) (p : Fin 5000) (j : Fin 64) :
    (((cfg1.win 6).blk t).view.emb (ix2 p j) : S50000x64.Idx) = ix2 (rowOf t p) j := by
  refine funext fun a => Fin.ext ?_
  obtain ⟨-, -, -, -, -, -, -, -, -, -, -, -, e0, e1⟩ := idx_facts t
  match a with
  | ⟨0, _⟩ => show win1_6.index t (0 : Fin 2) * 5000 + 1 * p.val = t.val * 5000 + p.val; rw [e0]; omega
  | ⟨1, _⟩ => show win1_6.index t (1 : Fin 2) * 64 + 1 * j.val = j.val; rw [e1]; omega

/-- WHAT POINT t WRITES BACK is block t of the node outputs of the arrays as the region finds them. -/
theorem flushed_eq (c : Dev nD) (t : Fin cfg1.N) :
    (dat1 (F := Ideal) V c).flushed 6 t = ((cfg1.win 6).blk t).view.read (Elt Ideal)
      (nodeArr (V c main_arg0) (V c main_v15) (V c main_arg8) (V c main_v16) (V c main_arg10) (V c main_v17)) := by
  show (cfg1.win 6).cut (grid1.coords t) ((dat1 V c).after 6 t) = _
  rw [after1_6]
  unfold out1_6
  rw [View.canon_unit_zero hz]
  simp only [View.ld_unit_zero (S := S5000x64) hz, View.ld_unit_zero (S := S128x64) hz, View.ld_unit_zero (S := S64x64) hz, View.ld_unit_zero (S := S1x64) hz]
  funext y
  obtain ⟨p, j, rfl⟩ : ∃ (p : Fin 5000) (j : Fin 64), y = ix2 p j := ⟨y 0, y 1, eq_ix2 y⟩
  show k1_pay1 (iblk1 V c 0 t) (iblk1 V c 1 t) (iblk1 V c 2 t) (iblk1 V c 3 t) (iblk1 V c 0 t) (iblk1 V c 4 t) (iblk1 V c 5 t) (ix2 p j)
    = nodeArr (V c main_arg0) (V c main_v15) (V c main_arg8) (V c main_v16) (V c main_arg10) (V c main_v17)
        (((cfg1.win 6).blk t).view.emb (ix2 p j))
  rw [emb_out]
  refine (NodeBody.pay_apply (iblk1 V c 0 t) (iblk1 V c 1 t) (iblk1 V c 2 t) (iblk1 V c 3 t) (iblk1 V c 0 t) (iblk1 V c 4 t) (iblk1 V c 5 t) p j).trans ?_
  unfold nodeArr
  simp only [rd_x, rd_agg, rd_w1, rd_b1, rd_w2, rd_b2]

/-- An index of the array is in point t's block iff each coordinate is in the block's range on its axis. -/
theorem mem_blk (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v18).slice (win1_6.rect t)).set ↔ _
  rw [View.set_slice_whole, Rect.mem_set_unit]
  exact Iff.rfl

/-- Every entry of the array is in the block of the point its row falls in. -/
theorem cover (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have ht : (i 0).val / 5000 < 10 := by omega
  refine ⟨⟨(i 0).val / 5000, ht⟩, flush1_6 _, ?_⟩
  rw [mem_blk]
  obtain ⟨-, -, -, -, -, -, -, -, -, -, -, -, e0, e1⟩ := idx_facts ⟨(i 0).val / 5000, ht⟩
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 64 ≤ (i 1).val ∧ (i 1).val < win1_6.index ⟨(i 0).val / 5000, ht⟩ (1 : Fin 2) * 64 + 64
    rw [e1]; omega

/-- THE ARRAY after the region: the node outputs of the arrays as the region finds them. -/
theorem final (c : Dev nD) : (dat1 (F := Ideal) V c).arrAt 6 cfg1.N
    = nodeArr (V c main_arg0) (V c main_v15) (V c main_arg8) (V c main_v16) (V c main_arg10) (V c main_v17) :=
  (dat1 (F := Ideal) V c).arrAt_eq_of_cover 6 _ (fun t _ => flushed_eq V c t) cover

end Cert.KernelIdeal.NodeArray

end
-- ==== Proof.KernelValue.lean ====
/-
  The kernel program's two results as functions of its arguments, over the extended reals: the edge features are the edge
  region's array of the host-side arrays before it (the two takes, attr and mask side by side, W₁'s row blocks, the biases
  laid as rows), and the node output is the node region's array of x, of those edge features scatter-added at the first index
  row, and of the node weights.
-/
import proofs.«409949_j86620900426031_2_alg».proof.Proof.HostSide
import proofs.«409949_j86620900426031_2_alg».proof.Proof.EdgeArray
import proofs.«409949_j86620900426031_2_alg».proof.Proof.NodeArray

set_option maxRecDepth 16384

noncomputable section

namespace Cert.KernelIdeal.Results

open Idealize.ShloMosaic Idealize.ShloMosaic.TcCoe Idealize.SL.Sem
open Cert.KernelIdeal Cert.KernelIdeal.Gen Cert.KernelIdeal.HostSide

/-- The edge features of the kernel program, of its arguments. -/
def kEdge (X : FVec Ideal S50000x64 .f32) (I : IVec S2x800000 32) (M A : FVec Ideal S800000x1 .f32) (W1 : FVec Ideal S129x64 .f32)
    (b1 : FVec Ideal S64 .f32) (W2 : FVec Ideal S64x64 .f32) (b2 : FVec Ideal S64 .f32) : FVec Ideal S800000x64 .f32 :=
  EdgeArray.edgeArr (take X (row0 I)) (take X (row1 I))
    (concatenate S800000x2 1 [⟨S800000x1, A⟩, ⟨S800000x1, M⟩] concatenates_S800000x1_S800000x1_S800000x2_d1)
    (extractStridedSlice S64x64 ![0, 0] W1 slices_S129x64_S64x64_0_0) (extractStridedSlice S64x64 ![64, 0] W1 slices_S129x64_S64x64_64_0)
    (extractStridedSlice S1x64 ![128, 0] W1 slices_S129x64_S1x64_128_0) (shapeCast S1x64 b1 shapeCasts_S64_S1x64) W2
    (shapeCast S1x64 b2 shapeCasts_S64_S1x64)

/-- The node output of the kernel program, of its arguments. -/
def kNode (X : FVec Ideal S50000x64 .f32) (I : IVec S2x800000 32) (M A : FVec Ideal S800000x1 .f32) (W1 : FVec Ideal S129x64 .f32)
    (b1 : FVec Ideal S64 .f32) (W2 : FVec Ideal S64x64 .f32) (b2 : FVec Ideal S64 .f32) (Wn1 : FVec Ideal S128x64 .f32)
    (bn1 : FVec Ideal S64 .f32) (Wn2 : FVec Ideal S64x64 .f32) (bn2 : FVec Ideal S64 .f32) : FVec Ideal S50000x64 .f32 :=
  NodeArray.nodeArr X (aggregate (row0 I) (kEdge X I M A W1 b1 W2 b2)) Wn1 (shapeCast S1x64 bn1 shapeCasts_S64_S1x64) Wn2
    (shapeCast S1x64 bn2 shapeCasts_S64_S1x64)

variable (m : (ℓ : Loc nD τ sig) → Buf (Elt Ideal) ℓ) (ρ : Dev nD → PrngReg)

/-- The edge region's array after the region is the edge features of the launch memory's arguments. -/
theorem edge_array (c : Dev nD) : (dat0 (F := Ideal) (V4 m ρ) c).arrAt 9 cfg0.N
    = kEdge (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [EdgeArray.final (V4 m ρ) c, V4_src, V4_tgt, V4_am, V4_ws, V4_wt, V4_wa, V4_b1, V4_w2, V4_b2]
  rfl

/-- At the last boundary the edge result holds the edge features. -/
theorem edge_result (c : Dev nD) : W7 m ρ c (Proc.devRef .tc main_v12)
    = kEdge (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (W7_ef m ρ c).trans (edge_array m ρ c)

/-- At the last boundary the node result holds the node output. -/
theorem node_result (c : Dev nD) : W7 m ρ c (Proc.devRef .tc main_v18)
    = kNode (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  rw [W7_out m ρ c, NodeArray.final (V6 m ρ) c, V6_x, V6_agg, V6_wn1, V6_bn1, V6_wn2, V6_bn2, edge_array m ρ c]
  rfl

end Cert.KernelIdeal.Results

end
-- ==== Proof.Words.lean ====
import Idealize.ShloMosaic.Lib.StableHlo.Predicate
import Idealize.ShloMosaic.PureOps

namespace Cert.Words

open Idealize.ShloMosaic

/-- A word that reads, signed, at least 0 and below 50000 is not negative and is at most 49999. -/
theorem in_range (v : BitVec 32) (h0 : IntOp.cmpi .sge v 0#32 = 1#1) (h1 : IntOp.cmpi .slt v 50000#32 = 1#1) :
    IntOp.cmpi .slt v 0#32 = 0#1 ∧ IntOp.cmpi .sge v 0#32 = 1#1 ∧ IntOp.cmpi .sle v 49999#32 = 1#1 := by
  refine ⟨?_, h0, ?_⟩
  all_goals
    unfold IntOp.cmpi at *
    rw [StableHlo.Predicate.ofBool_eq_one_iff] at h0 h1
    have e0 : (0#32 : BitVec 32).toInt = 0 := by decide
    have e1 : (50000#32 : BitVec 32).toInt = 50000 := by decide
    have e2 : (49999#32 : BitVec 32).toInt = 49999 := by decide
    simp only [BitVec.sle, BitVec.slt, decide_eq_true_eq] at h0 h1
  · have : v.slt 0#32 = false := by simp only [BitVec.slt, decide_eq_false_iff_not]; omega
    rw [this]; rfl
  · have : v.sle 49999#32 = true := by simp only [BitVec.sle, decide_eq_true_eq]; omega
    rw [this]; rfl

end Cert.Words
-- ==== Proof.LibReduceAnd.lean ====
/-
  A REDUCTION BY `and` OF ONES IS ONE.

  A one-operand `stablehlo.reduce` of a one-bit array by `and`, from an initial value that is 1, is 1 at every result
  index all of whose contributing operand elements are 1 — the converse of the library's reading of `jnp.all`
  (Lib/ReduceAll.lean), which goes from the result to the elements.
-/
import Idealize.ShloMosaic.Lib.ReduceAll

namespace Idealize.ShloMosaic

namespace IntOp

/-- A left fold by `and` from 1 over one-bit words that are all 1 is 1. -/
theorem foldl_andi_of_all {ι : Type} (f : ι → BitVec 1) :
    ∀ (l : List ι), (∀ n ∈ l, f n = 1#1) → l.foldl (fun r n => andi r (f n)) 1#1 = 1#1
  | [], _ => rfl
  | a :: l, h => by
    rw [List.foldl_cons, h a (List.mem_cons_self ..)]
    exact foldl_andi_of_all f l fun n hn => h n (List.mem_cons_of_mem _ hn)

end IntOp

namespace Host

variable {s t u : Shape} {axes : List (Fin s.rank)}

/-- A `stablehlo.reduce` by `and` from an initial 1 is 1 at `j` when every operand element that reduces into `j` is 1. -/
theorem reduce_andi_of_all (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  rw [Host.reduce_eq_foldl, hinit]
  refine IntOp.foldl_andi_of_all x _ fun i hi => ?_
  rw [List.mem_filter] at hi
  exact hx i (by simpa using hi.2)

end Host

end Idealize.ShloMosaic
-- ==== Proof.TakeInRange.lean ====
/-
  Where every index word is at least 0 and below 50000 (read signed), the take is the plain gather: no word is negative, so
  the wrapped word is the word; it lies in [0, 49999], so every row's in-bounds bit is 1 and the fill value is never chosen.
-/
import proofs.«409949_j86620900426031_2_alg».proof.Proof.HostSide
import proofs.«409949_j86620900426031_2_alg».proof.Proof.Words
import proofs.«409949_j86620900426031_2_alg».proof.Proof.LibReduceAnd
import Idealize.ShloMosaic.Lib.Pipeline.Value
import Idealize.ShloMosaic.Lib.ValueIdx

set_option maxRecDepth 16384

noncomputable section

namespace Cert.KernelIdeal.HostSide

open Idealize.ShloMosaic Idealize.ShloMosaic.ValueIdx
open Cert.KernelIdeal Cert.KernelIdeal.Gen

variable {F : FTy → Type} [FloatOps F]

/-- The start index of edge `e` is its index word when the word is not negative. -/
theorem startIdx_apply (idx : IVec S800000 32) (hidx : ∀ e : S800000.Idx, IntOp.cmpi .sge (idx e) 0#32 = 1#1 ∧ IntOp.cmpi .slt (idx e) 50000#32 = 1#1)
    (i : S800000x1.Idx) : startIdx idx i = idx (ix1 (⟨(i 0).val, (i 0).isLt⟩ : Fin 800000)) := by
  unfold startIdx
  rw [broadcastInDim_apply _ bcast_S800000_S800000x1_0 (wrapIdx idx) i (ix1 (⟨(i 0).val, (i 0).isLt⟩ : Fin 800000)) (fun a => match a with
    | ⟨0, _⟩ => by show (i 0).val = if (800000 : Nat) = 1 then 0 else (i 0).val; rw [if_neg (by decide)])]
  unfold wrapIdx
  rw [select_apply]
  have h := (Cert.Words.in_range _ (hidx (ix1 (⟨(i 0).val, (i 0).isLt⟩ : Fin 800000))).1 (hidx (ix1 (⟨(i 0).val, (i 0).isLt⟩ : Fin 800000))).2).1
  have hz : broadcastInDim S800000 ![] bcast_S_S800000 (constantI S_ 32 0#32) (ix1 (⟨(i 0).val, (i 0).isLt⟩ : Fin 800000)) = 0#32 :=
    broadcastInDim_apply _ bcast_S_S800000 _ _ ix0 (fun a => a.elim0)
  show Scalar.select (IntOp.cmpi .slt (idx _) (broadcastInDim S800000 ![] bcast_S_S800000 (constantI S_ 32 0#32) _)) _ _ = _
  rw [hz, h, select_zero]

/-- Every edge's start index is in bounds. -/
theorem inBounds_one (idx : IVec S800000 32) (hidx : ∀ e : S800000.Idx, IntOp.cmpi .sge (idx e) 0#32 = 1#1 ∧ IntOp.cmpi .slt (idx e) 50000#32 = 1#1) :
    inBounds idx = fun _ => 1#1 := by
  funext e
  unfold inBounds
  refine Host.reduce_andi_of_all _ _ _ _ e rfl (fun i _ => ?_)
  have hw := Cert.Words.in_range _ (hidx (ix1 (⟨(i 0).val, (i 0).isLt⟩ : Fin 800000))).1 (hidx (ix1 (⟨(i 0).val, (i 0).isLt⟩ : Fin 800000))).2
  have hz : broadcastInDim S800000x1 ![] bcast_S_S800000x1 (constantI S_ 32 0#32) i = 0#32 :=
    broadcastInDim_apply _ bcast_S_S800000x1 _ _ ix0 (fun a => a.elim0)
  have hh : broadcastInDim S800000x1 ![0, 1] bcast_S1x1_S800000x1_0_1 (broadcastInDim S1x1 ![1] bcast_S1_S1x1_1 (constantI S1 32 49999#32)) i = 49999#32 := by
    rw [broadcastInDim_apply _ bcast_S1x1_S800000x1_0_1 _ i (ix2 (0 : Fin 1) (0 : Fin 1)) (fun a => match a with
      | ⟨0, _⟩ => by show (0 : Nat) = if (1 : Nat) = 1 then 0 else _; rw [if_pos rfl]
      | ⟨1, _⟩ => by show (0 : Nat) = if (1 : Nat) = 1 then 0 else _; rw [if_pos rfl])]
    exact broadcastInDim_apply _ bcast_S1_S1x1_1 _ _ (ix1 (0 : Fin 1)) (fun a => match a with
      | ⟨0, _⟩ => by show (0 : Nat) = if (1 : Nat) = 1 then 0 else _; rw [if_pos rfl])
  show IntOp.andi (IntOp.cmpi .sge (startIdx idx i) (broadcastInDim S800000x1 ![] bcast_S_S800000x1 (constantI S_ 32 0#32) i))
    (IntOp.cmpi .sle (startIdx idx i) (broadcastInDim S800000x1 ![0, 1] bcast_S1x1_S800000x1_0_1 (broadcastInDim S1x1 ![1] bcast_S1_S1x1_1 (constantI S1 32 49999#32)) i)) = 1#1
  rw [hz, hh, startIdx_apply idx hidx i]
  exact IntOp.andi_eq_one.2 ⟨hw.2.1, hw.2.2⟩

/-- The take of in-range words is the gather at their start indices. -/
theorem take_eq_gather (x : FVec F S50000x64 .f32) (idx : IVec S800000 32)
    (hidx : ∀ e : S800000.Idx, IntOp.cmpi .sge (idx e) 0#32 = 1#1 ∧ IntOp.cmpi .slt (idx e) 50000#32 = 1#1) :
    take x idx = Host.gather gather_S50000x64_S800000x1_S800000x64_1_0_n_n_0_1_164 x (startIdx idx) := by
  unfold take
  rw [inBounds_one idx hidx]
  funext i
  rw [select_apply, broadcastInDim_apply _ bcast_S800000_S800000x64_0 (fun _ => 1#1) i (ix1 (⟨(i 0).val, (i 0).isLt⟩ : Fin 800000)) (fun a => match a with
    | ⟨0, _⟩ => by show (i 0).val = if (800000 : Nat) = 1 then 0 else (i 0).val; rw [if_neg (by decide)])]
  exact select_one _ _

end Cert.KernelIdeal.HostSide

end
-- ==== Proof.RefValue.lean ====
/-
  What the reference computes, entry by entry over the extended reals: its edge features at (e, j) are Layer.edgeRowCat of
  the concatenated row cat(x[row[e]], x[col[e]], attr[e]) and the mask, and its node output at (n, j) is Layer.nodeRow of
  row n of x and of the scatter-added messages. The sigmoid is spelt 1 / (1 + exp(-z)) on the host; the bias vectors are
  broadcast along the rows; the two matrix products are sums over the contracted column.
-/
import proofs.«409949_j86620900426031_2_alg».proof.Proof.Gen.ReferenceIdeal.Run
import proofs.«409949_j86620900426031_2_alg».proof.Proof.Gen.ReferenceIdeal.Read
import proofs.«409949_j86620900426031_2_alg».proof.Proof.Layer
import proofs.«409949_j86620900426031_2_alg».proof.Proof.Concat
import Idealize.ShloMosaic.Lib.ValueIdx

set_option maxRecDepth 16384

noncomputable section

open scoped BigOperators

namespace Cert.ReferenceIdeal.RefValue

open Idealize.ShloMosaic Idealize.ShloMosaic.ValueIdx Cert.ReferenceIdeal Cert.ReferenceIdeal.Read Cert.Layer

/-- The f32 pattern of 1.0 is the extended real 1. -/
theorem one_f32 : Ideal.ofBits .f32 0x3F800000#32 = (1 : EReal) := by
  simp [Ideal.ofBits, Ideal.ieee, -EReal.coe_mul]; norm_num

/-! ## The generated index functions at (row, column) -/

theorem l19 (e : Fin 800000) (k : Fin 64) (q : Fin 129) : lidx_main_v19 (ix2 e k) q = ix2 e q :=
  funext fun a => Fin.ext (by match a with | ⟨0, _⟩ => rfl | ⟨1, _⟩ => rfl)
theorem r19 (e : Fin 800000) (k : Fin 64) (q : Fin 129) : ridx_main_v19 (ix2 e k) q = ix2 q k :=
  funext fun a => Fin.ext (by match a with | ⟨0, _⟩ => rfl | ⟨1, _⟩ => rfl)
theorem b20 (e : Fin 800000) (k : Fin 64) : idx_main_v20 (idx_main_v21 (ix2 e k)) = ix1 k :=
  funext fun a => Fin.ext (by match a with | ⟨0, _⟩ => rfl)
theorem l24 (e : Fin 800000) (j k : Fin 64) : lidx_main_v24 (ix2 e j) k = ix2 e k :=
  funext fun a => Fin.ext (by match a with | ⟨0, _⟩ => rfl | ⟨1, _⟩ => rfl)
theorem r24 (e : Fin 800000) (j k : Fin 64) : ridx_main_v24 (ix2 e j) k = ix2 k j :=
  funext fun a => Fin.ext (by match a with | ⟨0, _⟩ => rfl | ⟨1, _⟩ => rfl)
theorem b25 (e : Fin 800000) (j : Fin 64) : idx_main_v25 (idx_main_v26 (ix2 e j)) = ix1 j :=
  funext fun a => Fin.ext (by match a with | ⟨0, _⟩ => rfl)
theorem m29 (e : Fin 800000) (j : Fin 64) : idx_main_v29 (ix2 e j) = ix2 e (0 : Fin 1) :=
  funext fun a => Fin.ext (by match a with | ⟨0, _⟩ => rfl | ⟨1, _⟩ => rfl)
theorem l35 (r : Fin 50000) (k : Fin 64) (q : Fin 128) : lidx_main_v35 (ix2 r k) q = ix2 r q :=
  funext fun a => Fin.ext (by match a with | ⟨0, _⟩ => rfl | ⟨1, _⟩ => rfl)
theorem r35 (r : Fin 50000) (k : Fin 64) (q : Fin 128) : ridx_main_v35 (ix2 r k) q = ix2 q k :=
  funext fun a => Fin.ext (by match a with | ⟨0, _⟩ => rfl | ⟨1, _⟩ => rfl)
theorem b36 (r : Fin 50000) (k : Fin 64) : idx_main_v36 (idx_main_v37 (ix2 r k)) = ix1 k :=
  funext fun a => Fin.ext (by match a with | ⟨0, _⟩ => rfl)
theorem l40 (r : Fin 50000) (j k : Fin 64) : lidx_main_v40 (ix2 r j) k = ix2 r k :=
  funext fun a => Fin.ext (by match a with | ⟨0, _⟩ => rfl | ⟨1, _⟩ => rfl)
theorem r40 (r : Fin 50000) (j k : Fin 64) : ridx_main_v40 (ix2 r j) k = ix2 k j :=
  funext fun a => Fin.ext (by match a with | ⟨0, _⟩ => rfl | ⟨1, _⟩ => rfl)
theorem b41 (r : Fin 50000) (j : Fin 64) : idx_main_v41 (idx_main_v42 (ix2 r j)) = ix1 j :=
  funext fun a => Fin.ext (by match a with | ⟨0, _⟩ => rfl)

/-! ## The two concatenations at a row -/

theorem v18_apply (x0 : (⟨S50000x64, .f32⟩ : BufTy).Contents (Elt Ideal)) (x1 : (⟨S2x800000, .i32⟩ : BufTy).Contents (Elt Ideal))
    (x3 : (⟨S800000x1, .f32⟩ : BufTy).Contents (Elt Ideal)) (e : Fin 800000) (q : Fin 129) :
    val_main_v18 (F := Ideal) x0 x1 x3 (ix2 e q)
      = cat3 (fun q => val_main_v10 (F := Ideal) x0 x1 (ix2 e q)) (fun q => val_main_v17 (F := Ideal) x0 x1 (ix2 e q)) (x3 (ix2 e (0 : Fin 1))) q := by
  unfold val_main_v18
  exact concat3_apply _ _ _ _ e q

theorem v34_apply (x0 : (⟨S50000x64, .f32⟩ : BufTy).Contents (Elt Ideal)) (x1 : (⟨S2x800000, .i32⟩ : BufTy).Contents (Elt Ideal))
    (x2 x3 : (⟨S800000x1, .f32⟩ : BufTy).Contents (Elt Ideal)) (x4 : (⟨S129x64, .f32⟩ : BufTy).Contents (Elt Ideal))
    (x5 : (⟨S64, .f32⟩ : BufTy).Contents (Elt Ideal)) (x6 : (⟨S64x64, .f32⟩ : BufTy).Contents (Elt Ideal)) (x7 : (⟨S64, .f32⟩ : BufTy).Contents (Elt Ideal))
    (r : Fin 50000) (q : Fin 128) :
    val_main_v34 (F := Ideal) x0 x1 x2 x3 x4 x5 x6 x7 (ix2 r q)
      = cat2 (fun q => x0 (ix2 r q)) (fun q => val_main_v33 (F := Ideal) x0 x1 x2 x3 x4 x5 x6 x7 (ix2 r q)) q := by
  unfold val_main_v34
  exact concat2_apply _ _ _ r q

/-! ## The two results at an entry -/

theorem edge_apply (x0 : (⟨S50000x64, .f32⟩ : BufTy).Contents (Elt Ideal)) (x1 : (⟨S2x800000, .i32⟩ : BufTy).Contents (Elt Ideal))
    (x2 x3 : (⟨S800000x1, .f32⟩ : BufTy).Contents (Elt Ideal)) (x4 : (⟨S129x64, .f32⟩ : BufTy).Contents (Elt Ideal))
    (x5 : (⟨S64, .f32⟩ : BufTy).Contents (Elt Ideal)) (x6 : (⟨S64x64, .f32⟩ : BufTy).Contents (Elt Ideal)) (x7 : (⟨S64, .f32⟩ : BufTy).Contents (Elt Ideal))
    (e : Fin 800000) (j : Fin 64) :
    val_main_v30 (F := Ideal) x0 x1 x2 x3 x4 x5 x6 x7 (ix2 e j)
      = edgeRowCat (cat3 (fun q => val_main_v10 (F := Ideal) x0 x1 (ix2 e q)) (fun q => val_main_v17 (F := Ideal) x0 x1 (ix2 e q)) (x3 (ix2 e (0 : Fin 1))))
          (x2 (ix2 e (0 : Fin 1))) (fun q k => x4 (ix2 q k)) (fun k => x5 (ix1 k)) (fun k j => x6 (ix2 k j)) (fun k => x7 (ix1 k)) j := by
  have h1 : (FloatOps.ofBits .f32 0x3F800000#32 : Ideal .f32) = (1 : EReal) := one_f32
  simp only [val_main_v30_apply, val_main_v29_apply, val_main_v28_apply, val_main_call1_v5_apply, val_main_call1_v4_apply,
    val_main_call1_cst_0_apply, val_main_call1_v3_apply, val_main_call1_v2_apply, val_main_call1_cst_apply, val_main_call1_v1_apply,
    val_main_call1_v0_apply, val_main_v27_apply, val_main_v26_apply, val_main_v25_apply, val_main_v24_apply, val_main_v23_apply,
    val_main_call0_v5_apply, val_main_call0_v4_apply, val_main_call0_cst_0_apply, val_main_call0_v3_apply, val_main_call0_v2_apply,
    val_main_call0_cst_apply, val_main_call0_v1_apply, val_main_call0_v0_apply, val_main_v22_apply, val_main_v21_apply,
    val_main_v20_apply, val_main_v19_apply, l19, r19, b20, l24, r24, b25, m29, v18_apply, h1]
  rfl

theorem node_apply (x0 : (⟨S50000x64, .f32⟩ : BufTy).Contents (Elt Ideal)) (x1 : (⟨S2x800000, .i32⟩ : BufTy).Contents (Elt Ideal))
    (x2 x3 : (⟨S800000x1, .f32⟩ : BufTy).Contents (Elt Ideal)) (x4 : (⟨S129x64, .f32⟩ : BufTy).Contents (Elt Ideal))
    (x5 : (⟨S64, .f32⟩ : BufTy).Contents (Elt Ideal)) (x6 : (⟨S64x64, .f32⟩ : BufTy).Contents (Elt Ideal)) (x7 : (⟨S64, .f32⟩ : BufTy).Contents (Elt Ideal))
    (x8 : (⟨S128x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal)) (r : Fin 50000) (j : Fin 64) :
    val_main_v44 (F := Ideal) x0 x1 x2 x3 x4 x5 x6 x7 x8 x9 x10 x11 (ix2 r j)
      = nodeRow (fun q => x0 (ix2 r q)) (cat2 (fun q => x0 (ix2 r q)) (fun q => val_main_v33 (F := Ideal) x0 x1 x2 x3 x4 x5 x6 x7 (ix2 r q)))
          (fun q k => x8 (ix2 q k)) (fun k => x9 (ix1 k)) (fun k j => x10 (ix2 k j)) (fun k => x11 (ix1 k)) j := by
  have h1 : (FloatOps.ofBits .f32 0x3F800000#32 : Ideal .f32) = (1 : EReal) := one_f32
  simp only [val_main_v44_apply, val_main_v43_apply, val_main_v42_apply, val_main_v41_apply, val_main_v40_apply, val_main_v39_apply,
    val_main_call2_v5_apply, val_main_call2_v4_apply, val_main_call2_cst_0_apply, val_main_call2_v3_apply, val_main_call2_v2_apply,
    val_main_call2_cst_apply, val_main_call2_v1_apply, val_main_call2_v0_apply, val_main_v38_apply, val_main_v37_apply,
    val_main_v36_apply, val_main_v35_apply, l35, r35, b36, l40, r40, b41, v34_apply, h1]
  rfl

end Cert.ReferenceIdeal.RefValue

end
-- ==== Proof.Bridge.lean ====
/-
  The kernel program's two results are the reference's, as functions of the arguments, wherever every index word is at least
  0 and below 50000. The takes are the reference's gathers (no row is replaced by the fill value); attr and the mask are the
  two columns of the pair; the three weight pieces are W₁'s row blocks, so the three partial products sum to the one product
  over the 129 concatenated columns; the biases laid as rows are the bias vectors; and the node side reads the same x, the
  same scatter-add of the same edge features, and the same weights.
-/
import proofs.«409949_j86620900426031_2_alg».proof.Proof.KernelValue
import proofs.«409949_j86620900426031_2_alg».proof.Proof.TakeInRange
import proofs.«409949_j86620900426031_2_alg».proof.Proof.RefValue
import Idealize.ShloMosaic.Lib.ValueLayout

set_option maxRecDepth 16384

noncomputable section

open scoped BigOperators

namespace Cert.Bridge

open Idealize.ShloMosaic Idealize.ShloMosaic.ValueIdx Cert.Layer
open Cert.KernelIdeal Cert.KernelIdeal.Gen Cert.KernelIdeal.HostSide Cert.KernelIdeal.Results

/-- The index words are in range: each at least 0 and below 50000, read signed. -/
def InRange (I : IVec S2x800000 32) : Prop :=
  ∀ i : S2x800000.Idx, IntOp.cmpi .sge (I i) 0#32 = 1#1 ∧ IntOp.cmpi .slt (I i) 50000#32 = 1#1

theorem row0_inRange (I : IVec S2x800000 32) (h : InRange I) (e : S800000.Idx) :
    IntOp.cmpi .sge (row0 I e) 0#32 = 1#1 ∧ IntOp.cmpi .slt (row0 I e) 50000#32 = 1#1 := by
  rw [show row0 I = Cert.ReferenceIdeal.Read.val_main_v1 (F := Ideal) I from rfl, Cert.ReferenceIdeal.Read.val_main_v1_apply,
    Cert.ReferenceIdeal.Read.val_main_v0_apply]
  exact h _

theorem row1_inRange (I : IVec S2x800000 32) (h : InRange I) (e : S800000.Idx) :
    IntOp.cmpi .sge (row1 I e) 0#32 = 1#1 ∧ IntOp.cmpi .slt (row1 I e) 50000#32 = 1#1 := by
  rw [show row1 I = Cert.ReferenceIdeal.Read.val_main_v3 (F := Ideal) I from rfl, Cert.ReferenceIdeal.Read.val_main_v3_apply,
    Cert.ReferenceIdeal.Read.val_main_v2_apply]
  exact h _

/-- The take at the first index row is the reference's first gather. -/
theorem take0_eq (X : FVec Ideal S50000x64 .f32) (I : IVec S2x800000 32) (h : InRange I) :
    take X (row0 I) = Cert.ReferenceIdeal.Read.val_main_v10 (F := Ideal) X I :=
  (take_eq_gather X (row0 I) (row0_inRange I h)).trans rfl

/-- The take at the second index row is the reference's second gather. -/
theorem take1_eq (X : FVec Ideal S50000x64 .f32) (I : IVec S2x800000 32) (h : InRange I) :
    take X (row1 I) = Cert.ReferenceIdeal.Read.val_main_v17 (F := Ideal) X I :=
  (take_eq_gather X (row1 I) (row1_inRange I h)).trans rfl

/-! ## The host-side layouts at an entry -/

theorem am0 (A M : FVec Ideal S800000x1 .f32) (e : Fin 800000) :
    concatenate S800000x2 1 [⟨S800000x1, A⟩, ⟨S800000x1, M⟩] concatenates_S800000x1_S800000x1_S800000x2_d1 (ix2 e (0 : Fin 2)) = A (ix2 e (0 : Fin 1)) :=
  concatenate_pair_apply_left (1 : Fin 2) A M _ (ix2 e (0 : Fin 2)) rfl (ix2 e (0 : Fin 1)) (fun b => by
    match b with
    | ⟨0, _⟩ => rfl
    | ⟨1, _⟩ => rfl)

theorem am1 (A M : FVec Ideal S800000x1 .f32) (e : Fin 800000) :
    concatenate S800000x2 1 [⟨S800000x1, A⟩, ⟨S800000x1, M⟩] concatenates_S800000x1_S800000x1_S800000x2_d1 (ix2 e (1 : Fin 2)) = M (ix2 e (0 : Fin 1)) :=
  concatenate_pair_apply_right (1 : Fin 2) A M _ (ix2 e (1 : Fin 2)) rfl rfl (ix2 e (0 : Fin 1)) (fun b hb => by
    match b with
    | ⟨0, _⟩ => rfl
    | ⟨1, _⟩ => exact absurd rfl hb) rfl

theorem ws_apply (W1 : FVec Ideal S129x64 .f32) (q k : Fin 64) :
    extractStridedSlice S64x64 ![0, 0] W1 slices_S129x64_S64x64_0_0 (ix2 q k) = W1 (ix2 (⟨q.val, by omega⟩ : Fin 129) k) :=
  slice2_axis0_apply 0 W1 _ q k _ (by simp)

theorem wt_apply (W1 : FVec Ideal S129x64 .f32) (q k : Fin 64) :
    extractStridedSlice S64x64 ![64, 0] W1 slices_S129x64_S64x64_64_0 (ix2 q k) = W1 (ix2 (⟨64 + q.val, by omega⟩ : Fin 129) k) :=
  slice2_axis0_apply 64 W1 _ q k _ rfl

theorem wa_apply (W1 : FVec Ideal S129x64 .f32) (k : Fin 64) :
    extractStridedSlice S1x64 ![128, 0] W1 slices_S129x64_S1x64_128_0 (ix2 (0 : Fin 1) k) = W1 (ix2 (⟨128, by omega⟩ : Fin 129) k) :=
  slice2_axis0_apply 128 W1 _ (0 : Fin 1) k _ rfl

theorem bias_apply (b : FVec Ideal S64 .f32) (k : Fin 64) :
    shapeCast S1x64 b shapeCasts_S64_S1x64 (ix2 (0 : Fin 1) k) = b (ix1 k) :=
  shapeCast_a_1a_apply b _ (0 : Fin 1) k

/-! ## The two results -/

/-- The kernel program's edge features are the reference's. -/
theorem edge_eq (X : FVec Ideal S50000x64 .f32) (I : IVec S2x800000 32) (M A : FVec Ideal S800000x1 .f32) (W1 : FVec Ideal S129x64 .f32)
    (b1 : FVec Ideal S64 .f32) (W2 : FVec Ideal S64x64 .f32) (b2 : FVec Ideal S64 .f32) (h : InRange I) :
    kEdge X I M A W1 b1 W2 b2 = Cert.ReferenceIdeal.Read.val_main_v30 (F := Ideal) X I M A W1 b1 W2 b2 := by
  funext i
  obtain ⟨e, j, rfl⟩ : ∃ (e : Fin 800000) (j : Fin 64), i = ix2 e j := ⟨i 0, i 1, eq_ix2 i⟩
  rw [Cert.ReferenceIdeal.RefValue.edge_apply, edgeRowCat_eq, ← take0_eq X I h, ← take1_eq X I h]
  unfold kEdge EdgeArray.edgeArr
  show edgeRow (fun q => take X (row0 I) (ix2 e q)) (fun q => take X (row1 I) (ix2 e q)) _ _ _ _ _ _ _ _ j = _
  simp only [am0, am1, ws_apply, wt_apply, wa_apply, bias_apply]

/-- The kernel program's node output is the reference's. -/
theorem node_eq (X : FVec Ideal S50000x64 .f32) (I : IVec S2x800000 32) (M A : FVec Ideal S800000x1 .f32) (W1 : FVec Ideal S129x64 .f32)
    (b1 : FVec Ideal S64 .f32) (W2 : FVec Ideal S64x64 .f32) (b2 : FVec Ideal S64 .f32) (Wn1 : FVec Ideal S128x64 .f32)
    (bn1 : FVec Ideal S64 .f32) (Wn2 : FVec Ideal S64x64 .f32) (bn2 : FVec Ideal S64 .f32) (h : InRange I) :
    kNode X I M A W1 b1 W2 b2 Wn1 bn1 Wn2 bn2 = Cert.ReferenceIdeal.Read.val_main_v44 (F := Ideal) X I M A W1 b1 W2 b2 Wn1 bn1 Wn2 bn2 := by
  funext i
  obtain ⟨r, j, rfl⟩ : ∃ (r : Fin 50000) (j : Fin 64), i = ix2 r j := ⟨i 0, i 1, eq_ix2 i⟩
  rw [Cert.ReferenceIdeal.RefValue.node_apply]
  have hagg : aggregate (row0 I) (kEdge X I M A W1 b1 W2 b2) = Cert.ReferenceIdeal.Read.val_main_v33 (F := Ideal) X I M A W1 b1 W2 b2 := by
    rw [edge_eq X I M A W1 b1 W2 b2 h]; rfl
  unfold kNode NodeArray.nodeArr
  rw [hagg]
  show nodeRow (fun q => X (ix2 r q)) (cat2 (fun q => X (ix2 r q)) (fun q => Cert.ReferenceIdeal.Read.val_main_v33 (F := Ideal) X I M A W1 b1 W2 b2 (ix2 r q))) _ _ _ _ j = _
  simp only [bias_apply]

end Cert.Bridge

end
-- ==== Proof.lean ====
/-
  One message-passing layer over a graph of 50000 nodes and 800000 edges, as a Pallas program of two kernels with the
  irregular steps on the host, against its jnp reference, over the extended reals.

  The program: gather x at the two rows of edge_index (jnp.take: negative words wrapped, out-of-range rows filled), lay attr
  and the mask side by side, cut W₁ into its three row blocks; the EDGE kernel, over 100 blocks of 8000 edges, computes
  silu(silu(src·W₁ₛ + tgt·W₁ₜ + attr·W₁ₐ + b₁)·W₂ + b₂)·mask; the host scatter-adds these edge features into zeros at the first
  index row; the NODE kernel, over 10 blocks of 5000 nodes, computes x + (silu(cat(x, agg)·Wn₁ + bn₁)·Wn₂ + bn₂). The reference
  gathers by x[row], x[col], multiplies the 129-column concatenation cat(src, tgt, attr) by W₁ at once, and is otherwise the
  same composition.

  The precondition keeps every float input finite and every index word in [0, 50000): there the take's fill is never chosen
  and the take is the reference's gather. The one algebraic step is the split of the sum over the 129 concatenated columns into
  the two 64-column sums and the attr term: commutativity and associativity of addition on the extended reals, which hold at the
  infinities too, so finiteness is never used. The idealization rewrote nothing, so its ledger is empty.
-/
import proofs.«409949_j86620900426031_2_alg».proof.Defs
import proofs.«409949_j86620900426031_2_alg».proof.Proof.Gen.Kernel
import proofs.«409949_j86620900426031_2_alg».proof.Proof.Gen.Kernel.Skeleton
import proofs.«409949_j86620900426031_2_alg».proof.Proof.Gen.Kernel.Launch
import proofs.«409949_j86620900426031_2_alg».proof.Proof.Gen.Kernel.Points
import proofs.«409949_j86620900426031_2_alg».proof.Proof.Gen.Kernel.Frame
import proofs.«409949_j86620900426031_2_alg».proof.Proof.Gen.KernelIdeal
import proofs.«409949_j86620900426031_2_alg».proof.Proof.Gen.KernelIdeal.Skeleton
import proofs.«409949_j86620900426031_2_alg».proof.Proof.Gen.KernelIdeal.Launch
import proofs.«409949_j86620900426031_2_alg».proof.Proof.Gen.KernelIdeal.Points
import proofs.«409949_j86620900426031_2_alg».proof.Proof.Gen.KernelIdeal.Frame
import proofs.«409949_j86620900426031_2_alg».proof.Proof.Gen.ReferenceIdeal
import proofs.«409949_j86620900426031_2_alg».proof.Proof.Gen.ReferenceIdeal.Run
import proofs.«409949_j86620900426031_2_alg».proof.Proof.Gen.ReferenceIdeal.Read
import proofs.«409949_j86620900426031_2_alg».proof.Proof.Gen.Pre_finite_inputs
import proofs.«409949_j86620900426031_2_alg».proof.Proof.KernelRun
import proofs.«409949_j86620900426031_2_alg».proof.Proof.IndexRange
import proofs.«409949_j86620900426031_2_alg».proof.Proof.Bridge
import Idealize.ShloMosaic.Adequacy
import Idealize.ShloMosaic.Init

set_option maxRecDepth 16384

noncomputable section

namespace Cert.Proof

open Idealize.ShloMosaic Idealize.SL.Sem

/-- The word-level program runs and leaves its arguments as launched. -/
theorem frame_k : Cert.frame_Kernel := fun m ρ _ => Cert.Kernel.Gen.frame m ρ

/-- The idealized program runs and leaves its arguments as launched. -/
theorem frame_ki : Cert.frame_KernelIdeal := fun m ρ _ => Cert.KernelIdeal.Gen.frame m ρ

/-- The reference runs and leaves its arguments as launched: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the node output and the edge features of the arguments, which agree where the index words are in
    range: the kernel program's by its two regions' arrays over the host-side values, the reference's by its run. -/
theorem algebraic : Cert.algebraic_KernelIdeal_ReferenceIdeal := by
  intro m ρ m' ρ' hpre hagree
  refine ⟨fun c => Cert.KernelIdeal.Results.kNode
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.KernelIdeal.Results.kEdge
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    ?_, ?_⟩
  · exact (θ_run Cert.KernelIdeal.defs _ _).mono
      (fun r h c => ⟨(h c).1.trans (Cert.KernelIdeal.Results.node_result m ρ c), (h c).2.1.trans (Cert.KernelIdeal.Results.edge_result m ρ c), (h c).2.2⟩)
      (Cert.KernelIdeal.Results.run_results m ρ)
  · refine (θ_run Cert.ReferenceIdeal.defs _ _).mono (fun r h c => ⟨?_, ?_, (h c).2.2⟩) (Cert.ReferenceIdeal.Value.run (F := Ideal) m' ρ')
    · obtain ⟨a0, a1, a2, a3, a4, a5, a6, a7, a8, a9, a10, a11⟩ := hagree c
      rw [(h c).1, Cert.ReferenceIdeal.Read.val_main_v44_eq, a0, a1, a2, a3, a4, a5, a6, a7, a8, a9, a10, a11]
      exact (Cert.Bridge.node_eq _ _ _ _ _ _ _ _ _ _ _ _ (Cert.IndexRange.of_pre _ _ _ _ _ _ _ _ _ _ _ _ (hpre c))).symm
    · obtain ⟨a0, a1, a2, a3, a4, a5, a6, a7, -⟩ := hagree c
      rw [(h c).2.1, Cert.ReferenceIdeal.Read.val_main_v30_eq, a0, a1, a2, a3, a4, a5, a6, a7]
      exact (Cert.Bridge.edge_eq _ _ _ _ _ _ _ _ (Cert.IndexRange.of_pre _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
